-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x1 : Shape := ⟨2, ![50000, 1]⟩
abbrev S2x9x64x256 : Shape := ⟨4, ![2, 9, 64, 256]⟩
abbrev S2x800000 : Shape := ⟨2, ![2, 800000]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S2x9x64x256 : S_.BroadcastsInDim S2x9x64x256 (![] : Fin 0 → Fin S2x9x64x256.rank)
  reducesTo_S2x9x64x256_S_d0_1_2_3 : S2x9x64x256.ReducesTo [0, 1, 2, 3] S_
  bcast_S_S2x800000 : S_.BroadcastsInDim S2x800000 (![] : Fin 0 → Fin S2x800000.rank)
  reducesTo_S2x800000_S_d0_1 : S2x800000.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S2x800000 32) (main_arg4 : IVec S800000 32) (main_v13 : IVec S_ 1) (main_v15 : IVec S2x800000 1) (main_c_5 : IVec S_ 32) : IVec S_ 1 :=
  let main_v16 : IVec S2x800000 32 := broadcastInDim S2x800000 ![] bcast_S_S2x800000 main_c_5
  let main_v17 : IVec S2x800000 1 := cmpi .slt main_arg3 main_v16
  let main_v18 : IVec S2x800000 1 := andi main_v15 main_v17
  let main_c_6 : IVec S_ 1 := constantI S_ 1 1#1
  let main_v19 : IVec S_ 1 := (fun x v => Host.reduce IntOp.andi x v reducesTo_S2x800000_S_d0_1 h_S_) main_v18 main_c_6
  let main_v20 : IVec S_ 1 := andi main_v13 main_v19
  let main_c_7 : IVec S_ 32 := constantI S_ 32 0#32
  let main_v21 : IVec S800000 32 := broadcastInDim S800000 ![] bcast_S_S800000 main_c_7
  let main_v22 : IVec S800000 1 := cmpi .sge main_arg4 main_v21
  let main_c_8 : IVec S_ 32 := constantI S_ 32 9#32
  let main_v23 : IVec S800000 32 := broadcastInDim S800000 ![] bcast_S_S800000 main_c_8
  let main_v24 : IVec S800000 1 := cmpi .slt main_arg4 main_v23
  let main_v25 : IVec S800000 1 := andi main_v22 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v20 main_v26
  main_v27

def fn {F : FTy → Type} [FloatOps F] (main_arg0 : FVec F S50000x256 .f32) (main_arg1 : FVec F S50000x1 .f32) (main_arg2 : FVec F S2x9x64x256 .f32) (main_arg3 : IVec S2x800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S2x9x64x256 .f32 := Host.absf main_arg2
  let main_cst_2 : FVec F S_ .f32 := constant S_ .f32 0x7F800000#32
  let main_v10 : FVec F S2x9x64x256 .f32 := broadcastInDim S2x9x64x256 ![] bcast_S_S2x9x64x256 main_cst_2
  let main_v11 : IVec S2x9x64x256 1 := cmpf .olt main_v9 main_v10
  let main_c_3 : IVec S_ 1 := constantI S_ 1 1#1
  let main_v12 : IVec S_ 1 := (fun x v => Host.reduce IntOp.andi x v reducesTo_S2x9x64x256_S_d0_1_2_3 h_S_) main_v11 main_c_3
  let main_v13 : IVec S_ 1 := andi main_v8 main_v12
  let main_c_4 : IVec S_ 32 := constantI S_ 32 0#32
  let main_v14 : IVec S2x800000 32 := broadcastInDim S2x800000 ![] bcast_S_S2x800000 main_c_4
  let main_v15 : IVec S2x800000 1 := cmpi .sge main_arg3 main_v14
  let main_c_5 : IVec S_ 32 := constantI S_ 32 50000#32
  fn_part1 (F := F) main_arg3 main_arg4 main_v13 main_v15 main_c_5
-- ==== Kernel.lean ====
abbrev S50000x256 : Shape := ⟨2, ![50000, 256]⟩
abbrev S50000x1 : Shape := ⟨2, ![50000, 1]⟩
abbrev S2x9x64x256 : Shape := ⟨4, ![2, 9, 64, 256]⟩
abbrev S2x800000 : Shape := ⟨2, ![2, 800000]⟩
abbrev S800000 : Shape := ⟨1, ![800000]⟩
abbrev S1x9x64x256 : Shape := ⟨4, ![1, 9, 64, 256]⟩
abbrev S9x64x256 : Shape := ⟨3, ![9, 64, 256]⟩
abbrev S9x128x256 : Shape := ⟨3, ![9, 128, 256]⟩
abbrev S9x50000x128 : Shape := ⟨3, ![9, 50000, 128]⟩
abbrev S2000x256 : Shape := ⟨2, ![2000, 256]⟩
abbrev S2000x1 : Shape := ⟨2, ![2000, 1]⟩
abbrev S1x2000x128 : Shape := ⟨3, ![1, 2000, 128]⟩
abbrev S1x128x256 : Shape := ⟨3, ![1, 128, 256]⟩
abbrev S128x256 : Shape := ⟨2, ![128, 256]⟩
abbrev S2000x128 : Shape := ⟨2, ![2000, 128]⟩
abbrev S1x800000 : Shape := ⟨2, ![1, 800000]⟩
abbrev S450000x128 : Shape := ⟨2, ![450000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x9x128 : Shape := ⟨3, ![50000, 9, 128]⟩
abbrev S50000x1152 : Shape := ⟨2, ![50000, 1152]⟩
abbrev S400x9x128 : Shape := ⟨3, ![400, 9, 128]⟩
abbrev S400x1 : Shape := ⟨2, ![400, 1]⟩
abbrev S400x1152 : Shape := ⟨2, ![400, 1152]⟩
abbrev S400x1x1 : Shape := ⟨3, ![400, 1, 1]⟩
abbrev S400x1x64 : Shape := ⟨3, ![400, 1, 64]⟩
abbrev S400x64 : Shape := ⟨2, ![400, 64]⟩
abbrev S400x576 : Shape := ⟨2, ![400, 576]⟩

abbrev nBuf : Space → Nat
  | .hbm => 53
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S2x9x64x256, .f32⟩
  | .hbm, ⟨3, _⟩ => ⟨S2x800000, .i32⟩
  | .hbm, ⟨4, _⟩ => ⟨S800000, .i32⟩
  | .hbm, ⟨5, _⟩ => ⟨S1x9x64x256, .f32⟩
  | .hbm, ⟨6, _⟩ => ⟨S9x64x256, .f32⟩
  | .hbm, ⟨7, _⟩ => ⟨S1x9x64x256, .f32⟩
  | .hbm, ⟨8, _⟩ => ⟨S9x64x256, .f32⟩
  | .hbm, ⟨9, _⟩ => ⟨S9x128x256, .f32⟩
  | .hbm, ⟨10, _⟩ => ⟨S9x50000x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S450000x128, .f32⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x128, .f32⟩
  | .hbm, ⟨39, _⟩ => ⟨S800000x128, .i1⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S_, .f32⟩
  | .hbm, ⟨48, _⟩ => ⟨S450000x128, .f32⟩
  | .hbm, ⟨49, _⟩ => ⟨S800000x1, .i32⟩
  | .hbm, ⟨50, _⟩ => ⟨S450000x128, .f32⟩
  | .hbm, ⟨51, _⟩ => ⟨S50000x9x128, .f32⟩
  | .hbm, ⟨52, _⟩ => ⟨S50000x1152, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S9x128x256, .f32⟩
  | .local _ .vmem, ⟨5, _⟩ => ⟨S1x2000x128, .f32⟩
  | .local _ .vmem, ⟨6, _⟩ => ⟨S1x2000x128, .f32⟩
  | .local _ .vmem, ⟨7, _⟩ => ⟨S400x9x128, .f32⟩
  | .local _ .vmem, ⟨8, _⟩ => ⟨S400x9x128, .f32⟩
  | .local _ .vmem, ⟨9, _⟩ => ⟨S400x1, .f32⟩
  | .local _ .vmem, ⟨10, _⟩ => ⟨S400x1, .f32⟩
  | .local _ .vmem, ⟨11, _⟩ => ⟨S400x1152, .f32⟩
  | .local _ .vmem, ⟨12, _⟩ => ⟨S400x1152, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v14 : Ref sig .tc := ⟨.hbm, 42, rfl⟩
abbrev main_c_0 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![25, 9], ![false, false]⟩

def k0_off1 (i : grid0.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![125], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x9x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x9x64x256_S1x9x64x256_0_0_0_0 : S2x9x64x256.Slices ![0, 0, 0, 0] S1x9x64x256
  shapeCasts_S1x9x64x256_S9x64x256 : S1x9x64x256.ShapeCasts S9x64x256
  slices_S2x9x64x256_S1x9x64x256_1_0_0_0 : S2x9x64x256.Slices ![1, 0, 0, 0] S1x9x64x256
  concatenates_S9x64x256_S9x64x256_S9x128x256_d1 : Shape.Concatenates [S9x64x256, S9x64x256] S9x128x256 1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  broadcasts_S2000x1_S2000x256 : S2000x1.Broadcasts S2000x256
  bitsLt_bf16_f32 : FTy.bits .bf16 < FTy.bits .f32
  h_S1x128x256 : 0 < S1x128x256.numel
  shapeCasts_S1x128x256_S128x256 : S1x128x256.ShapeCasts S128x256
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  slices_S2x800000_S1x800000_1_0 : S2x800000.Slices ![1, 0] S1x800000
  shapeCasts_S1x800000_S800000 : S1x800000.ShapeCasts S800000
  slices_S2x800000_S1x800000_0_0 : S2x800000.Slices ![0, 0] S1x800000
  shapeCasts_S9x50000x128_S450000x128 : S9x50000x128.ShapeCasts S450000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S450000x128 : S_.BroadcastsInDim S450000x128 (![] : Fin 0 → Fin S450000x128.rank)
  shapeCasts_S450000x128_S50000x9x128 : S450000x128.ShapeCasts S50000x9x128
  inb_S400x9x128_S400x9x128_0_0_0 : ∀ a, (![0, 0, 0] : Fin 3 → Nat) a + S400x9x128.size a ≤ S400x9x128.size a
  h_S400x9x128 : 0 < S400x9x128.numel
  shapeCasts_S400x9x128_S400x9x128 : S400x9x128.ShapeCasts S400x9x128
  inb_S400x1_S400x1_0_0 : ∀ a, (![0, 0] : Fin 2 → Nat) a + S400x1.size a ≤ S400x1.size a
  h_S400x1 : 0 < S400x1.numel
  shapeCasts_S400x1_S400x1x1 : S400x1.ShapeCasts S400x1x1
  broadcasts_S400x1x1_S400x9x128 : S400x1x1.Broadcasts S400x9x128
  slices_S400x9x128_o0_0_0_S400x1x64 : S400x9x128.Slices ![0, 0, 0] S400x1x64
  shapeCasts_S400x1x64_S400x64 : S400x1x64.ShapeCasts S400x64
  slices_S400x9x128_o0_1_0_S400x1x64 : S400x9x128.Slices ![0, 1, 0] S400x1x64
  slices_S400x9x128_o0_2_0_S400x1x64 : S400x9x128.Slices ![0, 2, 0] S400x1x64
  slices_S400x9x128_o0_3_0_S400x1x64 : S400x9x128.Slices ![0, 3, 0] S400x1x64
  slices_S400x9x128_o0_4_0_S400x1x64 : S400x9x128.Slices ![0, 4, 0] S400x1x64
  slices_S400x9x128_o0_5_0_S400x1x64 : S400x9x128.Slices ![0, 5, 0] S400x1x64
  slices_S400x9x128_o0_6_0_S400x1x64 : S400x9x128.Slices ![0, 6, 0] S400x1x64
  slices_S400x9x128_o0_7_0_S400x1x64 : S400x9x128.Slices ![0, 7, 0] S400x1x64
  slices_S400x9x128_o0_8_0_S400x1x64 : S400x9x128.Slices ![0, 8, 0] S400x1x64
  concatenates_S400x64_S400x64_S400x64_S400x64_S400x64_S400x64_S400x64_S400x64_S400x64_S400x576_d1 : Shape.Concatenates [S400x64, S400x64, S400x64, S400x64, S400x64, S400x64, S400x64, S400x64, S400x64] S400x576 1
  slices_S400x9x128_o0_0_64_S400x1x64 : S400x9x128.Slices ![0, 0, 64] S400x1x64
  slices_S400x9x128_o0_1_64_S400x1x64 : S400x9x128.Slices ![0, 1, 64] S400x1x64
  slices_S400x9x128_o0_2_64_S400x1x64 : S400x9x128.Slices ![0, 2, 64] S400x1x64
  slices_S400x9x128_o0_3_64_S400x1x64 : S400x9x128.Slices ![0, 3, 64] S400x1x64
  slices_S400x9x128_o0_4_64_S400x1x64 : S400x9x128.Slices ![0, 4, 64] S400x1x64
  slices_S400x9x128_o0_5_64_S400x1x64 : S400x9x128.Slices ![0, 5, 64] S400x1x64
  slices_S400x9x128_o0_6_64_S400x1x64 : S400x9x128.Slices ![0, 6, 64] S400x1x64
  slices_S400x9x128_o0_7_64_S400x1x64 : S400x9x128.Slices ![0, 7, 64] S400x1x64
  slices_S400x9x128_o0_8_64_S400x1x64 : S400x9x128.Slices ![0, 8, 64] S400x1x64
  concatenates_S400x576_S400x576_S400x1152_d1 : Shape.Concatenates [S400x576, S400x576] S400x1152 1
  inb_S400x1152_S400x1152_0_0 : ∀ a, (![0, 0] : Fin 2 → Nat) a + S400x1152.size a ≤ S400x1152.size a
  h_S400x1152 : 0 < S400x1152.numel
  dot_S2000x256_S128x256_S2000x128_1_1_0_0_n_n_wf : DotDims.WF S2000x256 S128x256 S2000x128 [1] [1] [0] [0] [] []
  gather_S450000x128_S800000x1_S800000x128_1_0_n_n_0_1_1128_wf : GatherDims.WF S450000x128 S800000x1 S800000x128 [1] [0] [] [0] [] 1 ![1, 128]
  scatter_S450000x128_S800000x1_S800000x128_1_0_0_1_wf : ScatterDims.WF S450000x128 S800000x1 S800000x128 [1] [0] [0] 1
  hrank0 : 0 < grid0.rank
  k0_off1_inb : ∀ i : grid0.Coords, ∀ a, (k0_off1 i) a + S1x128x256.size a ≤ S9x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x128x256.size a ≤ S9x128x256.size a
  hwx0_2 : ∀ i : grid0.Coords, EltTy.bits .f32 = 32 ∨ (Rect.block (s := S9x128x256) S9x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x128.size a ≤ S9x50000x128.size a
  hwx0_3 : ∀ i : grid0.Coords, EltTy.bits .f32 = 32 ∨ (Rect.block (s := S9x50000x128) S1x2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x9x128.size a ≤ S50000x9x128.size a
  hwx1_0 : ∀ i : grid1.Coords, EltTy.bits .f32 = 32 ∨ (Rect.block (s := S50000x9x128) S400x9x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1.size a ≤ S50000x1.size a
  hwx1_1 : ∀ i : grid1.Coords, EltTy.bits .f32 = 32 ∨ (Rect.block (s := S50000x1) S400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1152.size a ≤ S50000x1152.size a
  hwx1_2 : ∀ i : grid1.Coords, EltTy.bits .f32 = 32 ∨ (Rect.block (s := S50000x1152) S400x1152.size (cc1_transform_2 i) (hinb1_2 i)).WholeWords (EltTy.packing .f32)

variable [Facts₀]

def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf
def gather_S450000x128_S800000x1_S800000x128_1_0_n_n_0_1_1128 : GatherDims S450000x128 S800000x1 S800000x128 where
  offsetDims := [1]
  collapsedSliceDims := [0]
  operandBatchingDims := []
  startIndicesBatchingDims := []
  startIndexMap := [0]
  indexVectorDim := 1
  sliceSizes := ![1, 128]
  wf := gather_S450000x128_S800000x1_S800000x128_1_0_n_n_0_1_1128_wf
def scatter_S450000x128_S800000x1_S800000x128_1_0_0_1 : ScatterDims S450000x128 S800000x1 S800000x128 where
  updateWindowDims := [1]
  insertedWindowDims := [0]
  scatterDimsToOperandDims := [0]
  indexVectorDim := 1
  wf := scatter_S450000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S9x128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S400x9x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S400x1152.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S50000x1 : Shape := ⟨2, ![50000, 1]⟩
abbrev S2x9x64x256 : Shape := ⟨4, ![2, 9, 64, 256]⟩
abbrev S2x800000 : Shape := ⟨2, ![2, 800000]⟩
abbrev S800000 : Shape := ⟨1, ![800000]⟩
abbrev S2x9x64x50000 : Shape := ⟨4, ![2, 9, 64, 50000]⟩
abbrev S2x9x50000x64 : Shape := ⟨4, ![2, 9, 50000, 64]⟩
abbrev S1x800000 : Shape := ⟨2, ![1, 800000]⟩
abbrev S_ : Shape := ⟨0, ![]⟩
abbrev S800000x1 : Shape := ⟨2, ![800000, 1]⟩
abbrev S800000x2 : Shape := ⟨2, ![800000, 2]⟩
abbrev S2x800000x64 : Shape := ⟨3, ![2, 800000, 64]⟩
abbrev S800000x2x64 : Shape := ⟨3, ![800000, 2, 64]⟩
abbrev S450000x2x64 : Shape := ⟨3, ![450000, 2, 64]⟩
abbrev S9x50000x2x64 : Shape := ⟨4, ![9, 50000, 2, 64]⟩
abbrev S2x50000x9x64 : Shape := ⟨4, ![2, 50000, 9, 64]⟩
abbrev S2x50000x576 : Shape := ⟨3, ![2, 50000, 576]⟩
abbrev S1x50000x1 : Shape := ⟨3, ![1, 50000, 1]⟩
abbrev S50000x2x576 : Shape := ⟨3, ![50000, 2, 576]⟩
abbrev S50000x1152 : Shape := ⟨2, ![50000, 1152]⟩

abbrev nBuf : Space → Nat
  | .hbm => 51
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S2x9x64x256, .f32⟩
  | .hbm, ⟨3, _⟩ => ⟨S2x800000, .i32⟩
  | .hbm, ⟨4, _⟩ => ⟨S800000, .i32⟩
  | .hbm, ⟨5, _⟩ => ⟨S50000x256, .f32⟩
  | .hbm, ⟨6, _⟩ => ⟨S50000x256, .f32⟩
  | .hbm, ⟨7, _⟩ => ⟨S2x9x64x50000, .f32⟩
  | .hbm, ⟨8, _⟩ => ⟨S2x9x50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x1, .i32⟩
  | .hbm, ⟨29, _⟩ => ⟨S800000x2, .i32⟩
  | .hbm, ⟨30, _⟩ => ⟨S2x800000x64, .f32⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x2x64, .f32⟩
  | .hbm, ⟨36, _⟩ => ⟨S_, .f32⟩
  | .hbm, ⟨37, _⟩ => ⟨S450000x2x64, .f32⟩
  | .hbm, ⟨38, _⟩ => ⟨S800000x1, .i32⟩
  | .hbm, ⟨39, _⟩ => ⟨S450000x2x64, .f32⟩
  | .hbm, ⟨40, _⟩ => ⟨S9x50000x2x64, .f32⟩
  | .hbm, ⟨41, _⟩ => ⟨S2x50000x9x64, .f32⟩
  | .hbm, ⟨42, _⟩ => ⟨S2x50000x576, .f32⟩
  | .hbm, ⟨43, _⟩ => ⟨S1x50000x1, .f32⟩
  | .hbm, ⟨44, _⟩ => ⟨S2x50000x576, .f32⟩
  | .hbm, ⟨45, _⟩ => ⟨S2x50000x576, .f32⟩
  | .hbm, ⟨46, _⟩ => ⟨S_, .f32⟩
  | .hbm, ⟨47, _⟩ => ⟨S2x50000x576, .f32⟩
  | .hbm, ⟨48, _⟩ => ⟨S2x50000x576, .f32⟩
  | .hbm, ⟨49, _⟩ => ⟨S50000x2x576, .f32⟩
  | .hbm, ⟨50, _⟩ => ⟨S50000x1152, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_cst : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  bcast_S50000x1_S50000x256_0_1 : S50000x1.BroadcastsInDim S50000x256 (![0, 1] : Fin 2 → Fin S50000x256.rank)
  transposes_S2x9x64x50000_S2x9x50000x64_0_1_3_2 : S2x9x64x50000.Transposes [0, 1, 3, 2] S2x9x50000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  transposes_S2x800000x64_S800000x2x64_1_0_2 : S2x800000x64.Transposes [1, 0, 2] S800000x2x64
  bcast_S_S450000x2x64 : S_.BroadcastsInDim S450000x2x64 (![] : Fin 0 → Fin S450000x2x64.rank)
  shapeCasts_S450000x2x64_S9x50000x2x64 : S450000x2x64.ShapeCasts S9x50000x2x64
  transposes_S9x50000x2x64_S2x50000x9x64_2_1_0_3 : S9x50000x2x64.Transposes [2, 1, 0, 3] S2x50000x9x64
  shapeCasts_S2x50000x9x64_S2x50000x576 : S2x50000x9x64.ShapeCasts S2x50000x576
  bcast_S50000x1_S1x50000x1_1_2 : S50000x1.BroadcastsInDim S1x50000x1 (![1, 2] : Fin 2 → Fin S1x50000x1.rank)
  bcast_S1x50000x1_S2x50000x576_0_1_2 : S1x50000x1.BroadcastsInDim S2x50000x576 (![0, 1, 2] : Fin 3 → Fin S2x50000x576.rank)
  bcast_S_S2x50000x576 : S_.BroadcastsInDim S2x50000x576 (![] : Fin 0 → Fin S2x50000x576.rank)
  transposes_S2x50000x576_S50000x2x576_1_0_2 : S2x50000x576.Transposes [1, 0, 2] S50000x2x576
  shapeCasts_S50000x2x576_S50000x1152 : S50000x2x576.ShapeCasts S50000x1152
  dot_S2x9x64x256_S50000x256_S2x9x64x50000_3_1_012_0_n_n_wf : DotDims.WF S2x9x64x256 S50000x256 S2x9x64x50000 [3] [1] [0, 1, 2] [0] [] []
  gather_S2x9x50000x64_S800000x2_S2x800000x64_02_12_n_n_12_1_21164_wf : GatherDims.WF S2x9x50000x64 S800000x2 S2x800000x64 [0, 2] [1, 2] [] [1, 2] [] 1 ![2, 1, 1, 64]
  scatter_S450000x2x64_S800000x1_S800000x2x64_12_0_0_1_wf : ScatterDims.WF S450000x2x64 S800000x1 S800000x2x64 [1, 2] [0] [0] 1

variable [Facts₀]

def dot_S2x9x64x256_S50000x256_S2x9x64x50000_3_1_012_0_n_n : DotDims S2x9x64x256 S50000x256 S2x9x64x50000 where
  lhsContracting := [3]
  rhsContracting := [1]
  lhsNonContracting := [0, 1, 2]
  rhsNonContracting := [0]
  lhsBatch := []
  rhsBatch := []
  wf := dot_S2x9x64x256_S50000x256_S2x9x64x50000_3_1_012_0_n_n_wf
def gather_S2x9x50000x64_S800000x2_S2x800000x64_02_12_n_n_12_1_21164 : GatherDims S2x9x50000x64 S800000x2 S2x800000x64 where
  offsetDims := [0, 2]
  collapsedSliceDims := [1, 2]
  operandBatchingDims := []
  startIndicesBatchingDims := []
  startIndexMap := [1, 2]
  indexVectorDim := 1
  sliceSizes := ![2, 1, 1, 64]
  wf := gather_S2x9x50000x64_S800000x2_S2x800000x64_02_12_n_n_12_1_21164_wf
def scatter_S450000x2x64_S800000x1_S800000x2x64_12_0_0_1 : ScatterDims S450000x2x64 S800000x1 S800000x2x64 where
  updateWindowDims := [1, 2]
  insertedWindowDims := [0]
  scatterDimsToOperandDims := [0]
  indexVectorDim := 1
  wf := scatter_S450000x2x64_S800000x1_S800000x2x64_12_0_0_1_wf

class Facts : Prop extends Facts₀ where

variable [Facts]
-- ==== Proof.Spec.lean ====
/-
  The layer as one function of its inputs, over plain coordinates.

  Nodes n < 50000, input features i < 256, heads h < 2, divisions (relations) d < 9, output features o < 64,
  edges e < 800000. Every edge carries a relation `rel e`, a source node `src e` and a target node `dst e`.

    lin h d n o   = ∑ i, (feat n i · nrm n) · W h d o i          the node's transformed features, per head and division
    agg n d h o   = ∑ e with dst e = n and rel e = d, lin h (rel e) (src e) o
                                                                  the messages a node receives over one relation
    out n (h·576 + d·64 + o) = max (agg n d h o · nrm n) 0       scaled, rectified, divisions then heads side by side

  All sums are finite sums of extended reals; no law beyond commutativity and associativity of + and · is used
  to bring either program to this form, so nothing here asks the inputs to be finite.
-/
import Idealize.ShloMosaic.PureOps.Ideal
import Idealize.ShloMosaic.Lib.ValueIdx

noncomputable section

namespace Cert.Spec

open Idealize.ShloMosaic Idealize.ShloMosaic.ValueIdx

/-- Features [50000, 256], the per-node scale [50000, 1], the weights [2, 9, 64, 256], as extended reals. -/
abbrev Feat := (⟨2, ![50000, 256]⟩ : Shape).Idx → EReal
abbrev Nrm := (⟨2, ![50000, 1]⟩ : Shape).Idx → EReal
abbrev Wt := (⟨4, ![2, 9, 64, 256]⟩ : Shape).Idx → EReal

/-- The head of output column `c` of 1152 = 2 · 9 · 64. -/
def hOf (c : Fin 1152) : Fin 2 := ⟨c.val / 576, by have := c.isLt; omega⟩
/-- The division of output column `c`. -/
def dOf (c : Fin 1152) : Fin 9 := ⟨c.val % 576 / 64, by have := c.isLt; omega⟩
/-- The output feature of output column `c`. -/
def oOf (c : Fin 1152) : Fin 64 := ⟨c.val % 64, Nat.mod_lt _ (by decide)⟩

/-- Node `n`'s scaled feature row against weight row `(h, d, o)`. -/
def lin (feat : Feat) (nrm : Nrm) (W : Wt) (h : Fin 2) (d : Fin 9) (n : Fin 50000) (o : Fin 64) : EReal :=
  ∑ i : Fin 256, (feat (ix2 n i) * nrm (ix2 n 0)) * W (ix4 h d o i)

/-- What node `n` receives over relation `d`: the transformed features of the sources of its `d`-edges, summed. -/
def agg (feat : Feat) (nrm : Nrm) (W : Wt) (rel : Fin 800000 → Fin 9) (src dst : Fin 800000 → Fin 50000)
    (n : Fin 50000) (d : Fin 9) (h : Fin 2) (o : Fin 64) : EReal :=
  ∑ e : Fin 800000, if dst e = n ∧ rel e = d then lin feat nrm W h (rel e) (src e) o else 0

/-- The layer's result [50000, 1152]. -/
def out (feat : Feat) (nrm : Nrm) (W : Wt) (rel : Fin 800000 → Fin 9) (src dst : Fin 800000 → Fin 50000) :
    (⟨2, ![50000, 1152]⟩ : Shape).Idx → EReal :=
  fun j => max (agg feat nrm W rel src dst (j 0) (dOf (j 1)) (hOf (j 1)) (oOf (j 1)) * nrm (ix2 (j 0) 0)) 0

/-- The edge tables as the programs hold them, 32-bit words: row 0 of `ei` the targets, row 1 the sources,
    `er` the relations; each word is the coordinate it names. -/
structure Tables (ei : IVec ⟨2, ![2, 800000]⟩ 32) (er : IVec ⟨1, ![800000]⟩ 32)
    (rel : Fin 800000 → Fin 9) (src dst : Fin 800000 → Fin 50000) : Prop where
  dst_eq : ∀ e : Fin 800000, ei (ix2 0 e) = BitVec.ofNat 32 (dst e).val
  src_eq : ∀ e : Fin 800000, ei (ix2 1 e) = BitVec.ofNat 32 (src e).val
  rel_eq : ∀ e : Fin 800000, er (ix1 e) = BitVec.ofNat 32 (rel e).val

end Cert.Spec

end
-- ==== Proof.KMid.lean ====
/-
  The host operations between the two regions, as one function of the first region's output and the edge tables.

    flat e  = rel e · 50000 + src e                     the row of the table [9·50000, 128] an edge reads
    taken   = the table's rows at `flat` (a negative index wrapped by +450000, an index outside
              [0, 449999] answered by a fill value; with the tables in range neither happens)
    seg e   = dst e · 9 + rel e                          the bucket of [50000·9, 128] an edge adds its row to
    mid     = the buckets, zero plus the rows added, laid out [50000, 9, 128]

  With the tables read as coordinates:  mid n d k = ∑ e with dst e = n and rel e = d, hcat (rel e) (src e) k .
-/
import proofs.«425970_j89361089560784_1_alg».proof.KernelIdeal
import proofs.«425970_j89361089560784_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Mid

open Cert.KernelIdeal Idealize.ShloMosaic Idealize.ShloMosaic.ValueIdx
open Facts₀ Facts

variable {F : FTy → Type} [FloatOps F] [Facts]

/-- Row 1 of the edge table: the sources. -/
def srcW (ei : IVec S2x800000 32) : IVec S800000 32 :=
  shapeCast S800000 (extractStridedSlice S1x800000 ![1, 0] ei slices_S2x800000_S1x800000_1_0) shapeCasts_S1x800000_S800000
/-- Row 0 of the edge table: the targets. -/
def dstW (ei : IVec S2x800000 32) : IVec S800000 32 :=
  shapeCast S800000 (extractStridedSlice S1x800000 ![0, 0] ei slices_S2x800000_S1x800000_0_0) shapeCasts_S1x800000_S800000

/-- The flat row index an edge reads: relation · 50000 + source. -/
def flat (ei : IVec S2x800000 32) (er : IVec S800000 32) : IVec S800000 32 :=
  addi (muli er (broadcastInDim S800000 ![] bcast_S_S800000 (constantI S_ 32 50000#32))) (srcW ei)

/-- The flat index with a negative value wrapped by +450000, as a column [800000, 1]. -/
def wrapped (fl : IVec S800000 32) : IVec S800000x1 32 :=
  broadcastInDim S800000x1 ![0] bcast_S800000_S800000x1_0
    (select (cmpi .slt fl (broadcastInDim S800000 ![] bcast_S_S800000 (constantI S_ 32 0#32)))
      (addi fl (broadcastInDim S800000 ![] bcast_S_S800000 (constantI S_ 32 450000#32))) fl)

/-- Whether an edge's wrapped index lies in [0, 449999]. -/
def inRange (fl : IVec S800000 32) : IVec S800000 1 :=
  Host.reduce IntOp.andi
    (andi (cmpi .sge (wrapped fl) (broadcastInDim S800000x1 ![] bcast_S_S800000x1 (constantI S_ 32 0#32)))
      (cmpi .sle (wrapped fl)
        (broadcastInDim S800000x1 ![0, 1] bcast_S1x1_S800000x1_0_1
          (broadcastInDim S1x1 ![1] bcast_S1_S1x1_1 (constantI S1 32 449999#32)))))
    (constantI S_ 1 1#1) reducesTo_S800000x1_S800000_d1 h_S_

/-- The rows of the flattened table the edges read; the fill value where an index is out of range. -/
def taken (tbl : FVec F S450000x128 .f32) (fl : IVec S800000 32) : FVec F S800000x128 .f32 :=
  select (broadcastInDim S800000x128 ![0] bcast_S800000_S800000x128_0 (inRange fl))
    (Host.gather gather_S450000x128_S800000x1_S800000x128_1_0_n_n_0_1_1128 tbl (wrapped fl))
    (broadcastInDim S800000x128 ![] bcast_S_S800000x128 (constant S_ .f32 0x7FC00000#32))

/-- The bucket an edge adds to: target · 9 + relation, as a column [800000, 1]. -/
def seg (ei : IVec S2x800000 32) (er : IVec S800000 32) : IVec S800000x1 32 :=
  broadcastInDim S800000x1 ![0] bcast_S800000_S800000x1_0
    (addi (muli (dstW ei) (broadcastInDim S800000 ![] bcast_S_S800000 (constantI S_ 32 9#32))) er)

/-- The stretch between the regions: the first region's output [9, 50000, 128] flattened, its rows taken per
    edge, added into the buckets, the buckets laid out [50000, 9, 128]. -/
def mid (hcat : FVec F S9x50000x128 .f32) (ei : IVec S2x800000 32) (er : IVec S800000 32) : FVec F S50000x9x128 .f32 :=
  shapeCast S50000x9x128
    (Host.scatterAdd scatter_S450000x128_S800000x1_S800000x128_1_0_0_1
      (broadcastInDim S450000x128 ![] bcast_S_S450000x128 (constant S_ .f32 0x00000000#32))
      (seg ei er)
      (taken (shapeCast S450000x128 hcat shapeCasts_S9x50000x128_S450000x128) (flat ei er)))
    shapeCasts_S450000x128_S50000x9x128

/-- A small natural as a 32-bit word reads itself, unsigned. -/
theorem toNat_ofNat_small (m : Nat) (hm : m < 2 ^ 31) : (BitVec.ofNat 32 m).toNat = m := by
  rw [BitVec.toNat_ofNat]; exact Nat.mod_eq_of_lt (by omega)

/-- relation · 50000 + source as words is the word of the number: the sum does not wrap. -/
theorem flat_word (r s : Nat) (hr : r < 9) (hs : s < 50000) :
    IntOp.addi (IntOp.muli (BitVec.ofNat 32 r) 50000#32) (BitVec.ofNat 32 s) = BitVec.ofNat 32 (r * 50000 + s) := by
  apply BitVec.eq_of_toNat_eq
  show ((BitVec.ofNat 32 r) * 50000#32 + BitVec.ofNat 32 s).toNat = _
  simp only [BitVec.toNat_add, BitVec.toNat_mul, BitVec.toNat_ofNat]
  omega

/-- target · 9 + relation as words is the word of the number. -/
theorem seg_word (t r : Nat) (ht : t < 50000) (hr : r < 9) :
    IntOp.addi (IntOp.muli (BitVec.ofNat 32 t) 9#32) (BitVec.ofNat 32 r) = BitVec.ofNat 32 (t * 9 + r) := by
  apply BitVec.eq_of_toNat_eq
  show ((BitVec.ofNat 32 t) * 9#32 + BitVec.ofNat 32 r).toNat = _
  simp only [BitVec.toNat_add, BitVec.toNat_mul, BitVec.toNat_ofNat]
  omega

/-- Row 1 of the edge table at edge `e`. -/
theorem srcW_apply (ei : IVec S2x800000 32) (e : Fin 800000) : srcW ei (ix1 e) = ei (ix2 1 e) := by
  unfold srcW
  refine (shapeCast_apply _ _ (ix1 e) (ix2 (0 : Fin 1) e) ?_).trans ?_
  · rw [Shape.rowMajor_val_two, Shape.rowMajor_val_one]; show 0 * 800000 + e.val = e.val; omega
  · refine extractStridedSlice_apply _ _ _ _ (ix2 1 e) fun a => ?_
    match a with
    | ⟨0, _⟩ => rfl
    | ⟨1, _⟩ => show e.val = 0 + e.val; omega

/-- Row 0 of the edge table at edge `e`. -/
theorem dstW_apply (ei : IVec S2x800000 32) (e : Fin 800000) : dstW ei (ix1 e) = ei (ix2 0 e) := by
  unfold dstW
  refine (shapeCast_apply _ _ (ix1 e) (ix2 (0 : Fin 1) e) ?_).trans ?_
  · rw [Shape.rowMajor_val_two, Shape.rowMajor_val_one]; show 0 * 800000 + e.val = e.val; omega
  · refine extractStridedSlice_apply _ _ _ _ (ix2 0 e) fun a => ?_
    match a with
    | ⟨0, _⟩ => rfl
    | ⟨1, _⟩ => show e.val = 0 + e.val; omega

section Tables
variable {ei : IVec S2x800000 32} {er : IVec S800000 32}
  {rel : Fin 800000 → Fin 9} {src dst : Fin 800000 → Fin 50000} (T : Cert.Spec.Tables ei er rel src dst)
include T

/-- The flat index of edge `e` is the word of relation · 50000 + source. -/
theorem flat_apply (e : Fin 800000) :
    flat ei er (ix1 e) = BitVec.ofNat 32 ((rel e).val * 50000 + (src e).val) := by
  show IntOp.addi (IntOp.muli (er (ix1 e)) 50000#32) (srcW ei (ix1 e)) = _
  rw [srcW_apply, T.rel_eq, T.src_eq]
  exact flat_word _ _ (rel e).isLt (src e).isLt

end Tables

/-- The wrapped index as a column reads, at row `e`, the select on the flat index of that row. -/
theorem wrapped_apply (fl : IVec S800000 32) (e : Fin 800000) (z : Fin 1) :
    wrapped fl (ix2 e z) = Scalar.select (IntOp.cmpi .slt (fl (ix1 e)) 0#32)
      (IntOp.addi (fl (ix1 e)) 450000#32) (fl (ix1 e)) := by
  unfold wrapped
  refine (broadcastInDim_apply _ _ _ (ix2 e z) (ix1 e) fun a => ?_).trans rfl
  match a with
  | ⟨0, _⟩ =>
    show e.val = if (800000 : Nat) = 1 then 0 else e.val
    rw [if_neg (by decide)]

/-- The bucket index as a column reads, at row `e`, target · 9 + relation of that row. -/
theorem seg_apply (ei : IVec S2x800000 32) (er : IVec S800000 32) (e : Fin 800000) (z : Fin 1) :
    seg ei er (ix2 e z) = IntOp.addi (IntOp.muli (dstW ei (ix1 e)) 9#32) (er (ix1 e)) := by
  unfold seg
  refine (broadcastInDim_apply _ _ _ (ix2 e z) (ix1 e) fun a => ?_).trans rfl
  match a with
  | ⟨0, _⟩ =>
    show e.val = if (800000 : Nat) = 1 then 0 else e.val
    rw [if_neg (by decide)]

/-- A fold of the one-bit "and" from 1 over bits that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

/-- A small word is not below zero, read signed. -/
theorem slt_zero_small (m : Nat) (hm : m < 2 ^ 31) : IntOp.cmpi .slt (BitVec.ofNat 32 m) 0#32 = 0#1 := by
  refine eq_zero_of_ne_one fun h => ?_
  have := (StableHlo.Predicate.slt_iff_toNat (a := BitVec.ofNat 32 m) (b := 0#32)
    (by rw [toNat_ofNat_small m hm]; exact hm) (by decide)).1 h
  simp at this

section Tables
variable {ei : IVec S2x800000 32} {er : IVec S800000 32}
  {rel : Fin 800000 → Fin 9} {src dst : Fin 800000 → Fin 50000} (T : Cert.Spec.Tables ei er rel src dst)
include T

/-- With the tables in range the wrapped index of row `e` is the flat index itself. -/
theorem wrapped_flat (e : Fin 800000) (z : Fin 1) :
    wrapped (flat ei er) (ix2 e z) = BitVec.ofNat 32 ((rel e).val * 50000 + (src e).val) := by
  have hr := (rel e).isLt
  have hs := (src e).isLt
  rw [wrapped_apply, flat_apply T, slt_zero_small _ (by omega), select_zero]

/-- The bucket index of row `e` is the word of target · 9 + relation. -/
theorem seg_tables (e : Fin 800000) (z : Fin 1) :
    seg ei er (ix2 e z) = BitVec.ofNat 32 ((dst e).val * 9 + (rel e).val) := by
  rw [seg_apply, dstW_apply, T.dst_eq, T.rel_eq]
  exact seg_word _ _ (dst e).isLt (rel e).isLt

/-- With the tables in range every edge's index passes the range test. -/
theorem inRange_flat (i : S800000.Idx) : inRange (flat ei er) i = 1#1 := by
  unfold inRange
  rw [Host.reduce_eq_fold]
  refine fold_andi_one _ _ fun j _ => ?_
  obtain ⟨e, z, rfl⟩ : ∃ (e : Fin 800000) (z : Fin 1), j = ix2 e z := ⟨j 0, j 1, eq_ix2 j⟩
  have hr := (rel e).isLt
  have hs := (src e).isLt
  show IntOp.andi (IntOp.cmpi .sge (wrapped (flat ei er) (ix2 e z)) 0#32)
    (IntOp.cmpi .sle (wrapped (flat ei er) (ix2 e z)) 449999#32) = 1#1
  rw [wrapped_flat T]
  have h1 : IntOp.cmpi .sge (BitVec.ofNat 32 ((rel e).val * 50000 + (src e).val)) 0#32 = 1#1 :=
    (StableHlo.Predicate.sge_iff_toNat (by rw [toNat_ofNat_small _ (by omega)]; omega) (by decide)).2
      (by show (0 : Nat) ≤ _; exact Nat.zero_le _)
  have h2 : IntOp.cmpi .sle (BitVec.ofNat 32 ((rel e).val * 50000 + (src e).val)) 449999#32 = 1#1 :=
    (StableHlo.Predicate.sle_iff_toNat (by rw [toNat_ofNat_small _ (by omega)]; omega) (by decide)).2
      (by rw [toNat_ofNat_small _ (by omega)]; show _ ≤ 449999; omega)
  rw [h1, h2]
  rfl

end Tables

/-! ## The row-take and the row-scatter read at an index

Both operations address rows of an [N × C] table by an [n × 1] column of 32-bit words: operand axis 0 is the indexed
(collapsed / inserted) one, operand axis 1 is carried whole by the result's / the updates' axis 1, the index vector
lies on axis 1 of the column. -/

/-- A coordinate of a rank-2 index set other than 1 is 0. -/
theorem fin2_eq_zero {X : Fin 2} (h : X ≠ 1) : X = 0 := by
  apply Fin.ext
  have h1 : X.val < 2 := X.isLt
  have h2 : X.val ≠ 1 := fun e => h (Fin.ext e)
  show X.val = 0
  omega

/-- A coordinate of a rank-2 index set other than 0 is 1. -/
theorem fin2_eq_one {X : Fin 2} (h : X ≠ 0) : X = 1 := by
  apply Fin.ext
  have h1 : X.val < 2 := X.isLt
  have h2 : X.val ≠ 0 := fun e => h (Fin.ext e)
  show X.val = 1
  omega

/-- THE ROW-TAKE at (p, c): the table at (row p's start index, read signed and clamped into the table; c). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c) = x (ix2 ⟨min (idx (ix2 p 0)).toInt.toNat (N - 1), by omega⟩ c) := by
  unfold Host.gather
  congr 1
  funext a
  apply Fin.ext
  have hb : ∀ a, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min _ (N - 1)
    rw [GatherDims.batchCoord_eq_zero _ _ _ (hb 0), GatherDims.offCoord_eq_zero _ _ _ hk, Nat.add_zero]
    unfold GatherDims.start
    rw [dif_pos hm, hsl]
    show min (idx _).toInt.toNat (N - 1) = _
    have hsi : d.siIdx (ix2 p c) ⟨d.startIndexMap.idxOf 0, List.idxOf_lt_length_iff.2 hm⟩ = ix2 p 0 := by
      funext b
      match b with
      | ⟨0, _⟩ =>
        unfold GatherDims.siIdx
        rw [dif_neg (by rw [hivd]; simp)]
        unfold GatherDims.siCoord
        apply Fin.ext
        simp only [Fin.val_cast]
        have hall : ∀ X ∈ d.batchDims, X = (0 : Fin 2) := by
          intro X hX
          have hX' : X ∉ d.offsetDims := by
            simpa [GatherDims.batchDims, Shape.kept, List.mem_filter, List.mem_finRange] using hX
          rw [hoff] at hX'
          exact fin2_eq_zero fun e => hX' (List.mem_singleton.mpr e)
        rw [hall _ (List.getElem_mem _)]
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    have hm : (1 : Fin 2) ∉ d.startIndexMap := by rw [hsim]; simp
    have hk : (1 : Fin 2) ∈ d.sKept := by rw [GatherDims.mem_sKept, hcoll, hob]; simp
    show d.start (ix2 p c) idx 1 + d.batchCoord (ix2 p c) 1 + d.offCoord (ix2 p c) 1 = c.val
    rw [GatherDims.batchCoord_eq_zero _ _ _ (hb 1)]
    unfold GatherDims.start GatherDims.offCoord
    rw [dif_neg hm, dif_pos hk]
    have hall : ∀ X ∈ d.offsetDims, X = (1 : Fin 2) := by
      intro X hX; rw [hoff] at hX; exact List.mem_singleton.mp hX
    rw [hall _ (List.getElem_mem _)]
    show 0 + 0 + c.val = c.val
    omega

/-- An update lands at operand index `i` exactly when, on every operand axis, its start (read signed, not clamped) plus
    its window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    by_cases hh : ∀ a, 0 ≤ d.start j idx a + (d.window j a : Int) ∧ d.start j idx a + (d.window j a : Int) < (s.size a : Int)
    · rw [dif_pos hh] at h
      have h' := Option.some.inj h
      intro a
      have e := congrArg (fun f : s.Idx => ((f a).val : Int)) h'
      simp only at e
      have h0 := (hh a).1
      omega
    · rw [dif_neg hh] at h
      cases h
  · intro h
    have hh : ∀ a, 0 ≤ d.start j idx a + (d.window j a : Int) ∧ d.start j idx a + (d.window j a : Int) < (s.size a : Int) :=
      fun a => by
        have := h a
        have := (i a).isLt
        omega
    rw [dif_pos hh]
    congr 1
    funext a
    apply Fin.ext
    show (d.start j idx a + (d.window j a : Int)).toNat = (i a).val
    have := h a
    omega

/-- THE ROW-SCATTER: update (p, c) lands at (r, c') exactly when row p's index word, read signed, is r and c = c'. -/
theorem scatter_rows_iff {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (p : Fin n) (c : Fin C) (r : Fin N) (c' : Fin C) :
    d.resultIdx? (ix2 p c) idx = some (ix2 r c') ↔ (idx (ix2 p 0)).toInt = (r.val : Int) ∧ c = c' := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by
    simp [ScatterDims.sKept, Shape.kept, List.mem_filter, List.mem_finRange, hiw]
  have hk1 : (1 : Fin 2) ∈ d.sKept := by
    simp [ScatterDims.sKept, Shape.kept, List.mem_filter, List.mem_finRange, hiw]
  have hsi : d.siIdx (ix2 p c) ⟨d.scatterDimsToOperandDims.idxOf 0, List.idxOf_lt_length_iff.2 hm0⟩ = ix2 p 0 := by
    funext b
    match b with
    | ⟨0, _⟩ =>
      unfold ScatterDims.siIdx
      rw [dif_neg (by rw [hivd]; simp)]
      unfold ScatterDims.siCoord
      apply Fin.ext
      simp only [Fin.val_cast]
      have hall : ∀ X ∈ d.uScatter, X = (0 : Fin 2) := by
        intro X hX
        have hX' : X ∉ d.updateWindowDims := by
          simpa [ScatterDims.uScatter, Shape.kept, List.mem_filter, List.mem_finRange] using hX
        rw [huw] at hX'
        exact fin2_eq_zero fun e => hX' (List.mem_singleton.mpr e)
      rw [hall _ (List.getElem_mem _)]
    | ⟨1, _⟩ =>
      unfold ScatterDims.siIdx
      rw [dif_pos (by rw [hivd])]
      apply Fin.ext
      show List.idxOf (0 : Fin 2) d.scatterDimsToOperandDims = 0
      rw [hsd]; simp
  have s0 : d.start (ix2 p c) idx 0 = (idx (ix2 p 0)).toInt := by
    unfold ScatterDims.start
    rw [dif_pos hm0, hsi]
  have s1 : d.start (ix2 p c) idx 1 = 0 := by
    unfold ScatterDims.start
    rw [dif_neg hm1]
  have w0 : d.window (ix2 p c) 0 = 0 := by
    unfold ScatterDims.window
    rw [dif_neg hk0]
  have w1 : d.window (ix2 p c) 1 = c.val := by
    unfold ScatterDims.window
    rw [dif_pos hk1]
    have hall : ∀ X ∈ d.updateWindowDims, X = (1 : Fin 2) := by
      intro X hX; rw [huw] at hX; exact List.mem_singleton.mp hX
    rw [hall _ (List.getElem_mem _)]
  rw [resultIdx?_eq_some_iff]
  constructor
  · intro h
    have h0 := h 0
    have h1 := h 1
    rw [s0, w0] at h0
    rw [s1, w1] at h1
    have e0 : ((ix2 r c' : (⟨2, ![N, C]⟩ : Shape).Idx) 0).val = r.val := rfl
    have e1 : ((ix2 r c' : (⟨2, ![N, C]⟩ : Shape).Idx) 1).val = c'.val := rfl
    rw [e0] at h0
    rw [e1] at h1
    exact ⟨by omega, Fin.ext (by omega)⟩
  · rintro ⟨h0, rfl⟩ a
    match a with
    | ⟨0, _⟩ =>
      show d.start (ix2 p c) idx 0 + (d.window (ix2 p c) 0 : Int) = (r.val : Int)
      rw [s0, w0, h0]; simp
    | ⟨1, _⟩ =>
      show d.start (ix2 p c) idx 1 + (d.window (ix2 p c) 1 : Int) = (c.val : Int)
      rw [s1, w1]; simp

/-- The accumulating row-scatter at (g, k), the index column naming bucket `sg e` for edge `e`: what was there
    plus the updates (e, k) of the edges whose bucket is g. -/
theorem scatter_at (x : FVec Ideal S450000x128 .f32) (idx : IVec S800000x1 32) (upd : FVec Ideal S800000x128 .f32)
    (sg : Fin 800000 → Fin 450000) (hseg : ∀ e : Fin 800000, idx (ix2 e 0) = BitVec.ofNat 32 (sg e).val)
    (g : Fin 450000) (k : Fin 128) :
    Host.scatterAdd (F := Ideal) scatter_S450000x128_S800000x1_S800000x128_1_0_0_1 x idx upd (ix2 g k)
      = x (ix2 g k) + ∑ e : Fin 800000, if sg e = g then upd (ix2 e k) else 0 := by
  show Ideal.hostScatterAdd scatter_S450000x128_S800000x1_S800000x128_1_0_0_1 x idx upd (ix2 g k) = _
  unfold Ideal.hostScatterAdd
  refine congrArg (x (ix2 g k) + ·) ?_
  refine Eq.trans ?_ (Finset.sum_filter (fun e : Fin 800000 => sg e = g) (fun e => upd (ix2 e k)))
  have key : ∀ (e : Fin 800000) (k' : Fin 128),
      scatter_S450000x128_S800000x1_S800000x128_1_0_0_1.resultIdx? (ix2 e k') idx = some (ix2 g k)
        ↔ sg e = g ∧ k' = k := by
    intro e k'
    have hlt := (sg e).isLt
    rw [scatter_rows_iff scatter_S450000x128_S800000x1_S800000x128_1_0_0_1 rfl rfl rfl rfl, hseg,
      StableHlo.Predicate.toInt_ofNat_small _ (by omega)]
    constructor
    · rintro ⟨h, h'⟩; exact ⟨Fin.ext (by omega), h'⟩
    · rintro ⟨h, h'⟩; exact ⟨by rw [h], h'⟩
  refine Finset.sum_nbij' (fun j => (j 0 : Fin 800000)) (fun e => ix2 e k) ?_ ?_ ?_ ?_ ?_
  · intro j hj
    obtain ⟨e, k', rfl⟩ : ∃ (e : Fin 800000) (k' : Fin 128), j = ix2 e k' := ⟨j 0, j 1, eq_ix2 j⟩
    exact Finset.mem_filter.mpr ⟨Finset.mem_univ _, ((key e k').1 (Finset.mem_filter.mp hj).2).1⟩
  · intro e he
    exact Finset.mem_filter.mpr ⟨Finset.mem_univ _, (key e k).2 ⟨(Finset.mem_filter.mp he).2, rfl⟩⟩
  · intro j hj
    obtain ⟨e, k', rfl⟩ : ∃ (e : Fin 800000) (k' : Fin 128), j = ix2 e k' := ⟨j 0, j 1, eq_ix2 j⟩
    have hk := ((key e k').1 (Finset.mem_filter.mp hj).2).2
    subst hk
    rfl
  · intro e he
    rfl
  · intro j hj
    obtain ⟨e, k', rfl⟩ : ∃ (e : Fin 800000) (k' : Fin 128), j = ix2 e k' := ⟨j 0, j 1, eq_ix2 j⟩
    have hk := ((key e k').1 (Finset.mem_filter.mp hj).2).2
    subst hk
    rfl

/-- The zero-filled buckets read 0 everywhere. -/
theorem zeros_apply (i : S450000x128.Idx) :
    broadcastInDim S450000x128 ![] bcast_S_S450000x128 (constant (F := Ideal) S_ .f32 0x00000000#32) i = 0 :=
  Ideal.ofBits_zero_f32

section Tables
variable {ei : IVec S2x800000 32} {er : IVec S800000 32}
  {rel : Fin 800000 → Fin 9} {src dst : Fin 800000 → Fin 50000} (T : Cert.Spec.Tables ei er rel src dst)
include T
/-- With the tables in range, edge `e` takes row relation · 50000 + source of the flattened table. -/
theorem taken_apply (tbl : FVec Ideal S450000x128 .f32) (e : Fin 800000) (k : Fin 128) :
    taken (F := Ideal) tbl (flat ei er) (ix2 e k)
      = tbl (ix2 (⟨(rel e).val * 50000 + (src e).val, by have := (rel e).isLt; have := (src e).isLt; omega⟩ : Fin 450000) k) := by
  have hr := (rel e).isLt
  have hs := (src e).isLt
  unfold taken
  rw [select_apply]
  have hc : broadcastInDim S800000x128 ![0] bcast_S800000_S800000x128_0 (inRange (flat ei er)) (ix2 e k) = 1#1 :=
    inRange_flat T _
  rw [hc, select_one,
    gather_rows gather_S450000x128_S800000x1_S800000x128_1_0_n_n_0_1_1128 rfl rfl rfl rfl rfl _ _ e k (by omega)]
  have hidx : min (wrapped (flat ei er) (ix2 e 0)).toInt.toNat (450000 - 1)
      = (rel e).val * 50000 + (src e).val := by
    rw [wrapped_flat T, StableHlo.Predicate.toInt_ofNat_small _ (by omega), Int.toNat_natCast]
    omega
  refine congrArg tbl (funext fun a => ?_)
  match a with
  | ⟨0, _⟩ => exact Fin.ext hidx
  | ⟨1, _⟩ => rfl

end Tables

/-- With the tables read as coordinates, entry (n, d, k) of the stretch's result is the sum, over the edges into
    node `n` of relation `d`, of the first region's output at (relation, source, k). -/
theorem mid_apply {ei : IVec S2x800000 32} {er : IVec S800000 32}
    {rel : Fin 800000 → Fin 9} {src dst : Fin 800000 → Fin 50000} (T : Cert.Spec.Tables ei er rel src dst)
    (hcat : FVec Ideal S9x50000x128 .f32) (n : Fin 50000) (d : Fin 9) (k : Fin 128) :
    mid (F := Ideal) hcat ei er (ix3 n d k)
      = ∑ e : Fin 800000, if dst e = n ∧ rel e = d then hcat (ix3 (rel e) (src e) k) else 0 := by
  have hn := n.isLt
  have hd := d.isLt
  unfold mid
  refine (shapeCast_apply _ _ (ix3 n d k) (ix2 (⟨n.val * 9 + d.val, by omega⟩ : Fin 450000) k) ?_).trans ?_
  · rw [Shape.rowMajor_val_two, Shape.rowMajor_val_three]
    show (n.val * 9 + d.val) * 128 + k.val = (n.val * 9 + d.val) * 128 + k.val
    rfl
  rw [scatter_at _ (seg ei er) _
      (fun e => (⟨(dst e).val * 9 + (rel e).val, by have := (dst e).isLt; have := (rel e).isLt; omega⟩ : Fin 450000))
      (fun e => seg_tables T e 0),
    zeros_apply, zero_add]
  refine Finset.sum_congr rfl fun e _ => ?_
  have hde := (dst e).isLt
  have hre := (rel e).isLt
  have hse := (src e).isLt
  by_cases hP : dst e = n ∧ rel e = d
  · have hA : (⟨(dst e).val * 9 + (rel e).val, by omega⟩ : Fin 450000) = ⟨n.val * 9 + d.val, by omega⟩ := by
      apply Fin.ext
      show (dst e).val * 9 + (rel e).val = n.val * 9 + d.val
      rw [hP.1, hP.2]
    rw [if_pos hP, if_pos hA, taken_apply T]
    refine shapeCast_apply _ _ _ (ix3 (rel e) (src e) k) ?_
    rw [Shape.rowMajor_val_two, Shape.rowMajor_val_three]
    show ((rel e).val * 50000 + (src e).val) * 128 + k.val = ((rel e).val * 50000 + (src e).val) * 128 + k.val
    rfl
  · have hA : ¬ (⟨(dst e).val * 9 + (rel e).val, by omega⟩ : Fin 450000) = ⟨n.val * 9 + d.val, by omega⟩ := by
      intro h
      have h' : (dst e).val * 9 + (rel e).val = n.val * 9 + d.val := congrArg Fin.val h
      exact hP ⟨Fin.ext (by omega), Fin.ext (by omega)⟩
    rw [if_neg hP, if_neg hA]

end Cert.KernelIdeal.Mid

end
-- ==== Proof.KGlue.lean ====
/-
  The contents fold of the kernel's program, read where the value needs it.

  Before the first region the host lays the two heads' weights side by side: wcat d (h·64 + o) i = W h d o i.
  Between the regions the host computes `Mid.mid` of the first region's output and the two tables.
  The arguments reach both regions as launched.
-/
import proofs.«425970_j89361089560784_1_alg».proof.Proof.Gen.KernelIdeal.Frame
import proofs.«425970_j89361089560784_1_alg».proof.Proof.KMid
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Cert.KernelIdeal.Mid
open Idealize.ShloMosaic Idealize.ShloMosaic.TcCoe Idealize.ShloMosaic.ValueIdx Idealize.SL.Sem Idealize.ShloMosaic.StableHlo
variable {F : FTy → Type} [FloatOps F]

/-- A buffer none of a stretch's operations writes keeps its contents. -/
local macro "not_written" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The stretch before the first region: the weights, heads side by side -/

/-- The two heads' weight slabs [9, 64, 256] joined along the output-feature axis. -/
def wcat (W : FVec F S2x9x64x256 .f32) : FVec F S9x128x256 .f32 :=
  concatenate S9x128x256 1
    [⟨S9x64x256, shapeCast S9x64x256 (extractStridedSlice S1x9x64x256 ![0, 0, 0, 0] W slices_S2x9x64x256_S1x9x64x256_0_0_0_0) shapeCasts_S1x9x64x256_S9x64x256⟩,
     ⟨S9x64x256, shapeCast S9x64x256 (extractStridedSlice S1x9x64x256 ![1, 0, 0, 0] W slices_S2x9x64x256_S1x9x64x256_1_0_0_0) shapeCasts_S1x9x64x256_S9x64x256⟩]
    concatenates_S9x64x256_S9x64x256_S9x128x256_d1

theorem s0_v4 (X : Valuation τ sig (Elt F)) :
    StableHlo.after hostOps0 X (Proc.devRef .tc main_v4) = wcat (X (Proc.devRef .tc main_arg2)) := by
  after_results; rfl

theorem s0_arg0 (X : Valuation τ sig (Elt F)) : StableHlo.after hostOps0 X (Proc.devRef .tc main_arg0) = X (Proc.devRef .tc main_arg0) := by
  not_written hostOps0
theorem s0_arg1 (X : Valuation τ sig (Elt F)) : StableHlo.after hostOps0 X (Proc.devRef .tc main_arg1) = X (Proc.devRef .tc main_arg1) := by
  not_written hostOps0
theorem s0_arg3 (X : Valuation τ sig (Elt F)) : StableHlo.after hostOps0 X (Proc.devRef .tc main_arg3) = X (Proc.devRef .tc main_arg3) := by
  not_written hostOps0
theorem s0_arg4 (X : Valuation τ sig (Elt F)) : StableHlo.after hostOps0 X (Proc.devRef .tc main_arg4) = X (Proc.devRef .tc main_arg4) := by
  not_written hostOps0

/-! ## The three stretches between the regions -/

theorem s1_v13 (X : Valuation τ sig (Elt F)) :
    StableHlo.after hostOps1 X (Proc.devRef .tc main_v13) = flat (X (Proc.devRef .tc main_arg3)) (X (Proc.devRef .tc main_arg4)) := by
  after_results; rfl
theorem s1_v10 (X : Valuation τ sig (Elt F)) :
    StableHlo.after hostOps1 X (Proc.devRef .tc main_v10)
      = shapeCast S450000x128 (X (Proc.devRef .tc main_v5) : FVec F S9x50000x128 .f32) shapeCasts_S9x50000x128_S450000x128 := by
  after_results; rfl
theorem s1_v9 (X : Valuation τ sig (Elt F)) :
    StableHlo.after hostOps1 X (Proc.devRef .tc main_v9) = dstW (X (Proc.devRef .tc main_arg3)) := by
  after_results; rfl
theorem s1_arg4 (X : Valuation τ sig (Elt F)) : StableHlo.after hostOps1 X (Proc.devRef .tc main_arg4) = X (Proc.devRef .tc main_arg4) := by
  not_written hostOps1
theorem s1_arg1 (X : Valuation τ sig (Elt F)) : StableHlo.after hostOps1 X (Proc.devRef .tc main_arg1) = X (Proc.devRef .tc main_arg1) := by
  not_written hostOps1

/-- The outlined take, first part: the flat index with a negative value wrapped, as a column. -/
abbrev takeA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v13 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 450000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v13 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v13 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- The outlined take, second part: whether the wrapped index lies in the table. -/
abbrev takeB : List (HloOp τ sig (Elt F)) :=
  [ StableHlo.TRef.nullary (.of main_call0_c_1 : StableHlo.TRef sig ⟨S1, .i32⟩) (constantI S1 32 449999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- The outlined take, last part: the rows gathered, the fill where the index is out of range. -/
abbrev takeC : List (HloOp τ sig (Elt F)) :=
  [ StableHlo.TRef.binary (.of main_v10 : StableHlo.TRef sig ⟨S450000x128, .f32⟩) (.of main_call0_v5 : StableHlo.TRef sig ⟨S800000x1, .i32⟩) (.of main_call0_v13 : StableHlo.TRef sig ⟨S800000x128, .f32⟩) (fun x i => Host.gather gather_S450000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v14 : StableHlo.TRef sig ⟨S800000x128, .f32⟩) select ]

theorem take_split : (hostOps1_1 : List (HloOp τ sig (Elt F))) = takeA ++ (takeB ++ takeC) := rfl

theorem tA_v5 (X : Valuation τ sig (Elt F)) :
    StableHlo.after takeA X (Proc.devRef .tc main_call0_v5) = wrapped (X (Proc.devRef .tc main_v13)) := by
  unfold wrapped
  after_results_simp <;> rfl
theorem tA_v10 (X : Valuation τ sig (Elt F)) : StableHlo.after takeA X (Proc.devRef .tc main_v10) = X (Proc.devRef .tc main_v10) := by
  not_written takeA

theorem tB_v12 (Y : Valuation τ sig (Elt F)) :
    StableHlo.after takeB Y (Proc.devRef .tc main_call0_v12)
      = Host.reduce IntOp.andi
          (andi (cmpi .sge (Y (Proc.devRef .tc main_call0_v5) : IVec S800000x1 32) (broadcastInDim S800000x1 ![] bcast_S_S800000x1 (constantI S_ 32 0#32)))
            (cmpi .sle (Y (Proc.devRef .tc main_call0_v5) : IVec S800000x1 32)
              (broadcastInDim S800000x1 ![0, 1] bcast_S1x1_S800000x1_0_1
                (broadcastInDim S1x1 ![1] bcast_S1_S1x1_1 (constantI S1 32 449999#32)))))
          (constantI S_ 1 1#1) reducesTo_S800000x1_S800000_d1 h_S_ := by
  after_results_simp
  simp only [TRef.toBuf, TRef.ofBuf, cast_eq]
theorem tB_v5 (Y : Valuation τ sig (Elt F)) : StableHlo.after takeB Y (Proc.devRef .tc main_call0_v5) = Y (Proc.devRef .tc main_call0_v5) := by
  not_written takeB
theorem tB_v10 (Y : Valuation τ sig (Elt F)) : StableHlo.after takeB Y (Proc.devRef .tc main_v10) = Y (Proc.devRef .tc main_v10) := by
  not_written takeB

theorem tC_v14 (Z : Valuation τ sig (Elt F)) :
    StableHlo.after takeC Z (Proc.devRef .tc main_v14)
      = select (broadcastInDim S800000x128 ![0] bcast_S800000_S800000x128_0 (Z (Proc.devRef .tc main_call0_v12) : IVec S800000 1))
          (Host.gather gather_S450000x128_S800000x1_S800000x128_1_0_n_n_0_1_1128
            (Z (Proc.devRef .tc main_v10) : FVec F S450000x128 .f32) (Z (Proc.devRef .tc main_call0_v5) : IVec S800000x1 32))
          (broadcastInDim S800000x128 ![] bcast_S_S800000x128 (constant S_ .f32 0x7FC00000#32)) := by
  after_results_simp <;> rfl

theorem s2_v14 (X : Valuation τ sig (Elt F)) :
    StableHlo.after hostOps1_1 X (Proc.devRef .tc main_v14)
      = taken (X (Proc.devRef .tc main_v10) : FVec F S450000x128 .f32) (X (Proc.devRef .tc main_v13)) := by
  rw [take_split, StableHlo.after_append, StableHlo.after_append, tC_v14, tB_v12, tB_v10, tB_v5, tA_v5, tA_v10]
  rfl
theorem s2_v9 (X : Valuation τ sig (Elt F)) : StableHlo.after hostOps1_1 X (Proc.devRef .tc main_v9) = X (Proc.devRef .tc main_v9) := by
  not_written hostOps1_1
theorem s2_arg4 (X : Valuation τ sig (Elt F)) : StableHlo.after hostOps1_1 X (Proc.devRef .tc main_arg4) = X (Proc.devRef .tc main_arg4) := by
  not_written hostOps1_1
theorem s2_arg1 (X : Valuation τ sig (Elt F)) : StableHlo.after hostOps1_1 X (Proc.devRef .tc main_arg1) = X (Proc.devRef .tc main_arg1) := by
  not_written hostOps1_1

theorem s3_v21 (X : Valuation τ sig (Elt F)) :
    StableHlo.after hostOps1_2 X (Proc.devRef .tc main_v21)
      = shapeCast S50000x9x128
          (Host.scatterAdd scatter_S450000x128_S800000x1_S800000x128_1_0_0_1
            (broadcastInDim S450000x128 ![] bcast_S_S450000x128 (constant S_ .f32 0x00000000#32))
            (broadcastInDim S800000x1 ![0] bcast_S800000_S800000x1_0
              (addi (muli (X (Proc.devRef .tc main_v9)) (broadcastInDim S800000 ![] bcast_S_S800000 (constantI S_ 32 9#32)))
                (X (Proc.devRef .tc main_arg4))))
            (X (Proc.devRef .tc main_v14) : FVec F S800000x128 .f32))
          shapeCasts_S450000x128_S50000x9x128 := by
  after_results; rfl
theorem s3_arg1 (X : Valuation τ sig (Elt F)) : StableHlo.after hostOps1_2 X (Proc.devRef .tc main_arg1) = X (Proc.devRef .tc main_arg1) := by
  not_written hostOps1_2

/-! ## The weights side by side, at an index -/

/-- Column `k` of the joined weights is head `k / 64`, output feature `k % 64`. -/
theorem wcat_apply (W : FVec F S2x9x64x256 .f32) (d : Fin 9) (k : Fin 128) (i : Fin 256) :
    wcat W (ix3 d k i)
      = W (ix4 (⟨k.val / 64, by have := k.isLt; omega⟩ : Fin 2) d (⟨k.val % 64, Nat.mod_lt _ (by decide)⟩ : Fin 64) i) := by
  unfold wcat
  by_cases hk : k.val < 64
  · refine (concatenate_pair_apply_left (t := S9x128x256) (s₁ := S9x64x256) (s₂ := S9x64x256) (1 : Fin S9x128x256.rank) _ _ _ (ix3 d k i) rfl (ix3 d (⟨k.val, hk⟩ : Fin 64) i)
      (fun b => match b with | ⟨0, _⟩ => rfl | ⟨1, _⟩ => rfl | ⟨2, _⟩ => rfl)).trans ?_
    refine (shapeCast_apply _ _ (ix3 d (⟨k.val, hk⟩ : Fin 64) i) (ix4 (0 : Fin 1) d (⟨k.val, hk⟩ : Fin 64) i) ?_).trans ?_
    · rw [Shape.rowMajor_val_four, Shape.rowMajor_val_three]
      show ((0 * 9 + d.val) * 64 + k.val) * 256 + i.val = (d.val * 64 + k.val) * 256 + i.val
      omega
    refine (extractStridedSlice_apply _ _ _ (ix4 (0 : Fin 1) d (⟨k.val, hk⟩ : Fin 64) i) (ix4 (0 : Fin 2) d (⟨k.val, hk⟩ : Fin 64) i)
      (fun a => match a with | ⟨0, _⟩ => rfl | ⟨1, _⟩ => by show d.val = 0 + d.val; omega
                             | ⟨2, _⟩ => by show k.val = 0 + k.val; omega | ⟨3, _⟩ => by show i.val = 0 + i.val; omega)).trans ?_
    refine congrArg W (funext fun a => match a with
      | ⟨0, _⟩ => Fin.ext (by show 0 = k.val / 64; omega) | ⟨1, _⟩ => rfl
      | ⟨2, _⟩ => Fin.ext (by show k.val = k.val % 64; omega) | ⟨3, _⟩ => rfl)
  · have hk' : 64 ≤ k.val := Nat.le_of_not_lt hk
    have hk2 : k.val - 64 < 64 := by have := k.isLt; omega
    refine (concatenate_pair_apply_right (t := S9x128x256) (s₁ := S9x64x256) (s₂ := S9x64x256) (1 : Fin S9x128x256.rank) _ _ _ (ix3 d k i) rfl rfl (ix3 d (⟨k.val - 64, hk2⟩ : Fin 64) i)
      (fun b => match b with | ⟨0, _⟩ => fun _ => rfl | ⟨1, _⟩ => fun h => absurd rfl h | ⟨2, _⟩ => fun _ => rfl)
      (by show k.val - 64 + 64 = k.val; omega)).trans ?_
    refine (shapeCast_apply _ _ (ix3 d (⟨k.val - 64, hk2⟩ : Fin 64) i) (ix4 (0 : Fin 1) d (⟨k.val - 64, hk2⟩ : Fin 64) i) ?_).trans ?_
    · rw [Shape.rowMajor_val_four, Shape.rowMajor_val_three]
      show ((0 * 9 + d.val) * 64 + (k.val - 64)) * 256 + i.val = (d.val * 64 + (k.val - 64)) * 256 + i.val
      omega
    refine (extractStridedSlice_apply _ _ _ (ix4 (0 : Fin 1) d (⟨k.val - 64, hk2⟩ : Fin 64) i) (ix4 (1 : Fin 2) d (⟨k.val - 64, hk2⟩ : Fin 64) i)
      (fun a => match a with | ⟨0, _⟩ => rfl | ⟨1, _⟩ => by show d.val = 0 + d.val; omega
                             | ⟨2, _⟩ => by show k.val - 64 = 0 + (k.val - 64); omega | ⟨3, _⟩ => by show i.val = 0 + i.val; omega)).trans ?_
    refine congrArg W (funext fun a => match a with
      | ⟨0, _⟩ => Fin.ext (by show 1 = k.val / 64; have := k.isLt; omega) | ⟨1, _⟩ => rfl
      | ⟨2, _⟩ => Fin.ext (by show k.val - 64 = k.val % 64; have := k.isLt; omega) | ⟨3, _⟩ => rfl)

/-! ## The fold, read at the buffers the value needs -/

variable (m : (ℓ : Loc nD τ sig) → Buf (Elt F) ℓ) (ρ : Dev nD → PrngReg)

theorem V1_arg0 (c : Dev nD) : V1 m ρ c main_arg0 = m ((c : Thread nD τ).loc main_arg0) := s0_arg0 _
theorem V1_arg1 (c : Dev nD) : V1 m ρ c main_arg1 = m ((c : Thread nD τ).loc main_arg1) := s0_arg1 _
theorem V1_v4 (c : Dev nD) : V1 m ρ c main_v4 = wcat (m ((c : Thread nD τ).loc main_arg2)) := s0_v4 _

theorem W2_arg3 (c : Dev nD) : W2 m ρ c (Proc.devRef .tc main_arg3) = m ((c : Thread nD τ).loc main_arg3) :=
  (W2_of_ne m ρ c main_arg3 (by decide)).trans (s0_arg3 _)
theorem W2_arg4 (c : Dev nD) : W2 m ρ c (Proc.devRef .tc main_arg4) = m ((c : Thread nD τ).loc main_arg4) :=
  (W2_of_ne m ρ c main_arg4 (by decide)).trans (s0_arg4 _)
theorem W2_arg1 (c : Dev nD) : W2 m ρ c (Proc.devRef .tc main_arg1) = m ((c : Thread nD τ).loc main_arg1) :=
  (W2_arr m ρ c 1).trans (((dat0 (V1 m ρ) c).arrAt_in 1 rfl _).trans ((A_eq0 (V1 m ρ) c 1).trans (s0_arg1 _)))
/-- The first region's output array at the region's exit is what its write-backs leave. -/
theorem W2_v5 (c : Dev nD) : W2 m ρ c (Proc.devRef .tc main_v5) = (dat0 (V1 m ρ) c).arrAt 3 cfg0.N := W2_arr m ρ c 3

/-- The scale reaches the second region as launched. -/
theorem V5_arg1 (c : Dev nD) : V5 m ρ c main_arg1 = m ((c : Thread nD τ).loc main_arg1) :=
  (s3_arg1 _).trans ((s2_arg1 _).trans ((s1_arg1 _).trans (W2_arg1 m ρ c)))

/-- The second region's first operand is the middle stretch's function of the first region's output and the
    launched tables. -/
theorem V5_v21 (c : Dev nD) :
    V5 m ρ c main_v21
      = mid (W2 m ρ c (Proc.devRef .tc main_v5)) (m ((c : Thread nD τ).loc main_arg3)) (m ((c : Thread nD τ).loc main_arg4)) := by
  have e9 : W4 m ρ c (Proc.devRef .tc main_v9) = dstW (m ((c : Thread nD τ).loc main_arg3)) :=
    (s2_v9 _).trans ((s1_v9 _).trans (congrArg dstW (W2_arg3 m ρ c)))
  have e4 : W4 m ρ c (Proc.devRef .tc main_arg4) = m ((c : Thread nD τ).loc main_arg4) :=
    (s2_arg4 _).trans ((s1_arg4 _).trans (W2_arg4 m ρ c))
  have e14 : W4 m ρ c (Proc.devRef .tc main_v14)
      = taken (shapeCast S450000x128 (W2 m ρ c (Proc.devRef .tc main_v5) : FVec F S9x50000x128 .f32) shapeCasts_S9x50000x128_S450000x128)
          (flat (m ((c : Thread nD τ).loc main_arg3)) (m ((c : Thread nD τ).loc main_arg4))) := by
    refine (s2_v14 _).trans ?_
    have a : W3 m ρ c (Proc.devRef .tc main_v10)
        = shapeCast S450000x128 (W2 m ρ c (Proc.devRef .tc main_v5) : FVec F S9x50000x128 .f32) shapeCasts_S9x50000x128_S450000x128 :=
      s1_v10 _
    have b : W3 m ρ c (Proc.devRef .tc main_v13)
        = flat (m ((c : Thread nD τ).loc main_arg3)) (m ((c : Thread nD τ).loc main_arg4)) :=
      (s1_v13 _).trans (congrArg₂ flat (W2_arg3 m ρ c) (W2_arg4 m ρ c))
    rw [a, b]
  refine (s3_v21 _).trans ?_
  rw [e9, e4, e14]
  rfl

end Cert.KernelIdeal.Glue

end
-- ==== Proof.R0Value.lean ====
/-
  What the first region leaves in its output array.

  The region walks a grid of 25 node blocks (2000 nodes each) by 9 divisions. At a point (block, d) the body scales
  the feature block by the nodes' scale, multiplies it with the d-th weight slab [128, 256] contracted over the 256
  input features, and writes the [2000, 128] product into block (d, block) of the output [9, 50000, 128]. So the
  whole output array is, index by index,

      hcat d n k = ∑ i, (feat n i · nrm n) · wcat d k i .
-/
import proofs.«425970_j89361089560784_1_alg».proof.Proof.Gen.KernelIdeal.Frame
import proofs.«425970_j89361089560784_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R0Value

open Cert.KernelIdeal Cert.KernelIdeal.Gen Idealize.ShloMosaic Idealize.ShloMosaic.TcCoe Idealize.ShloMosaic.ValueIdx Idealize.SL.Sem
open Idealize.ShloMosaic.Tactic

/-- The region-entry contents of the three input arrays and the output array after the region, each at its
    literal type (extended reals indexed by the array's shape). -/
abbrev featA (V : (c : Dev nD) → (b : Ref sig .tc) → Buf (Elt Ideal) ((c : Thread nD τ).loc b)) (c : Dev nD) :
    S50000x256.Idx → EReal := V c main_arg0
abbrev nrmA (V : (c : Dev nD) → (b : Ref sig .tc) → Buf (Elt Ideal) ((c : Thread nD τ).loc b)) (c : Dev nD) :
    S50000x1.Idx → EReal := V c main_arg1
abbrev wcatA (V : (c : Dev nD) → (b : Ref sig .tc) → Buf (Elt Ideal) ((c : Thread nD τ).loc b)) (c : Dev nD) :
    S9x128x256.Idx → EReal := V c main_v4
abbrev hcatA (V : (c : Dev nD) → (b : Ref sig .tc) → Buf (Elt Ideal) ((c : Thread nD τ).loc b)) (c : Dev nD) :
    S9x50000x128.Idx → EReal := (dat0 (F := Ideal) V c).arrAt 3 cfg0.N

section Piece
variable {F : FTy → Type} [FloatOps F]

theorem offs3_zero : (![0, 0, 0] : Fin 3 → Nat) = fun _ => 0 := funext fun a => by fin_cases a <;> rfl
theorem offs2_zero : (![0, 0] : Fin 2 → Nat) = fun _ => 0 := funext fun a => by fin_cases a <;> rfl

/-- The weight slab the body loads at a grid point: the row of the nine that the point's second coordinate names. -/
abbrev wslab (i : grid0.Coords) (x2 : Vec F S9x128x256 .f32) : Vec F S1x128x256 .f32 :=
  View.ld x2 (Rect.unit (s := S9x128x256) (k0_off1 i) S1x128x256.size (k0_off1_inb i))

/-- What the body leaves in the output's staging buffer: its one covering store's payload, over the two blocks it
    loads whole and the slab it loads at the point's row. -/
theorem staged_eq (c : Dev nD) (i : grid0.Coords) (a2 : Memref sig .tc .vmem S2000x256 .f32) (h2 : a2.IsWhole)
    (a3 : Memref sig .tc .vmem S2000x1 .f32) (h3 : a3.IsWhole) (a4 : Memref sig .tc .vmem S9x128x256 .f32) (h4 : a4.IsWhole)
    (a5 : Memref sig .tc .vmem S1x2000x128 .f32) (h5 : a5.IsWhole)
    (x0 : Vec F S2000x256 .f32) (x1 : Vec F S2000x1 .f32) (x2 : Vec F S9x128x256 .f32) :
    out0_A_3 c i a2 h2 a3 h3 a4 h4 a5 h5 x0 x1 x2 = k0_pay1 x0 x1 (wslab i x2) := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero offs3_zero]
  simp only [View.readAt_eq_ld, h2.read_unread, h3.read_unread, h4.read_unread, View.ld_unit_zero (S := S2000x256) offs2_zero,
    View.ld_unit_zero (S := S2000x1) offs2_zero]
  rfl
end Piece

/-! ## The payload at an index, over the extended reals -/

theorem lhs_mm_0 (j : S2000x128.Idx) (q : dot_S2000x256_S128x256_S2000x128_1_1_0_0_n_n.contr.Idx) :
    (dot_S2000x256_S128x256_S2000x128_1_1_0_0_n_n.lhsIdx j q 0).val = (j 0).val := by
  unfold DotDims.lhsIdx
  rw [dif_neg (show ¬(0 : Fin S2000x256.rank) ∈ dot_S2000x256_S128x256_S2000x128_1_1_0_0_n_n.lhsBatch by decide), dif_pos (show (0 : Fin S2000x256.rank) ∈ dot_S2000x256_S128x256_S2000x128_1_1_0_0_n_n.lhsNonContracting by decide)]
  rfl
theorem lhs_mm_1 (j : S2000x128.Idx) (q : dot_S2000x256_S128x256_S2000x128_1_1_0_0_n_n.contr.Idx) :
    (dot_S2000x256_S128x256_S2000x128_1_1_0_0_n_n.lhsIdx j q 1).val = (q ⟨0, by decide⟩).val :=
  dot_S2000x256_S128x256_S2000x128_1_1_0_0_n_n.lhsIdx_val_of_single rfl j q
theorem rhs_mm_0 (j : S2000x128.Idx) (q : dot_S2000x256_S128x256_S2000x128_1_1_0_0_n_n.contr.Idx) :
    (dot_S2000x256_S128x256_S2000x128_1_1_0_0_n_n.rhsIdx j q 0).val = (j 1).val := by
  unfold DotDims.rhsIdx
  rw [dif_neg (show ¬(0 : Fin S128x256.rank) ∈ dot_S2000x256_S128x256_S2000x128_1_1_0_0_n_n.rhsBatch by decide), dif_pos (show (0 : Fin S128x256.rank) ∈ dot_S2000x256_S128x256_S2000x128_1_1_0_0_n_n.rhsNonContracting by decide)]
  rfl
theorem rhs_mm_1 (j : S2000x128.Idx) (q : dot_S2000x256_S128x256_S2000x128_1_1_0_0_n_n.contr.Idx) :
    (dot_S2000x256_S128x256_S2000x128_1_1_0_0_n_n.rhsIdx j q 1).val = (q ⟨0, by decide⟩).val :=
  dot_S2000x256_S128x256_S2000x128_1_1_0_0_n_n.rhsIdx_val_of_single rfl j q

/-- The product into the zero block, at row r and column k: both operands contracted over their 256 columns. -/
theorem mm_apply (l : FVec Ideal S2000x256 .bf16) (w : FVec Ideal S128x256 .bf16) (r : Fin 2000) (k : Fin 128) :
    matmul dot_S2000x256_S128x256_S2000x128_1_1_0_0_n_n none l w (constant (F := Ideal) S2000x128 .f32 0x00000000#32) (ix2 r k)
      = ∑ i : Fin 256, l (ix2 r i) * w (ix2 k i) := by
  show FloatOps.matmul dot_S2000x256_S128x256_S2000x128_1_1_0_0_n_n none l w (constant (F := Ideal) S2000x128 .f32 0x00000000#32) (ix2 r k) = _
  rw [Ideal.matmul_constant_zero_apply, ← Equiv.sum_comp (ValueIdx.contrEquiv1 dot_S2000x256_S128x256_S2000x128_1_1_0_0_n_n 256 rfl rfl).symm]
  refine Finset.sum_congr rfl fun i _ => ?_
  have hk := ValueIdx.contrEquiv1_symm_val dot_S2000x256_S128x256_S2000x128_1_1_0_0_n_n 256 rfl rfl i
  have el : dot_S2000x256_S128x256_S2000x128_1_1_0_0_n_n.lhsIdx (ix2 r k) ((ValueIdx.contrEquiv1 dot_S2000x256_S128x256_S2000x128_1_1_0_0_n_n 256 rfl rfl).symm i) = ix2 r i := funext fun a => Fin.ext (by
    match a with
    | ⟨0, _⟩ => exact lhs_mm_0 _ _
    | ⟨1, _⟩ => exact (lhs_mm_1 _ _).trans hk)
  have er : dot_S2000x256_S128x256_S2000x128_1_1_0_0_n_n.rhsIdx (ix2 r k) ((ValueIdx.contrEquiv1 dot_S2000x256_S128x256_S2000x128_1_1_0_0_n_n 256 rfl rfl).symm i) = ix2 k i := funext fun a => Fin.ext (by
    match a with
    | ⟨0, _⟩ => exact rhs_mm_0 _ _
    | ⟨1, _⟩ => exact (rhs_mm_1 _ _).trans hk)
  rw [el, er]

/-- The scale column spread over the 256 features reads the row's scale. -/
theorem spread_apply (x1 : Vec Ideal S2000x1 .f32) (r : Fin 2000) (i : Fin 256) :
    broadcastTo S2000x256 x1 broadcasts_S2000x1_S2000x256 (ix2 r i) = x1 (ix2 r 0) :=
  broadcastTo_apply x1 broadcasts_S2000x1_S2000x256 (ix2 r i) (ix2 r 0) fun a => match a with
    | ⟨0, _⟩ => by show r.val = if (2000 : Nat) = 1 then 0 else r.val; rw [if_neg (by decide)]
    | ⟨1, _⟩ => by show 0 = if (1 : Nat) = 1 then 0 else i.val; rw [if_pos rfl]

/-- The slab with its unit axis dropped reads the slab at (0, k, i). -/
theorem wslab2_apply (v6 : Vec Ideal S1x128x256 .f32) (k : Fin 128) (i : Fin 256) :
    shapeCast S128x256 v6 shapeCasts_S1x128x256_S128x256 (ix2 k i) = v6 (ix3 0 k i) :=
  shapeCast_apply v6 shapeCasts_S1x128x256_S128x256 (ix2 k i) (ix3 0 k i) (by
    rw [Shape.rowMajor_val_three, Shape.rowMajor_val_two]
    show (0 * 128 + k.val) * 256 + i.val = k.val * 256 + i.val
    omega)

/-- The product block with a unit axis added reads the block at (r, k). -/
theorem blk3_apply (v9 : FVec Ideal S2000x128 .f32) (u : Fin 1) (r : Fin 2000) (k : Fin 128) :
    shapeCast S1x2000x128 v9 shapeCasts_S2000x128_S1x2000x128 (ix3 u r k) = v9 (ix2 r k) :=
  shapeCast_apply v9 shapeCasts_S2000x128_S1x2000x128 (ix3 u r k) (ix2 r k) (by
    have hu : u.val = 0 := by omega
    rw [Shape.rowMajor_val_three, Shape.rowMajor_val_two]
    show r.val * 128 + k.val = (u.val * 2000 + r.val) * 128 + k.val
    omega)

/-- The body's payload at (u, r, k): the scaled feature row r against the slab's row k, summed over the features. -/
theorem pay_apply (x0 : Vec Ideal S2000x256 .f32) (x1 : Vec Ideal S2000x1 .f32) (v6 : Vec Ideal S1x128x256 .f32)
    (u : Fin 1) (r : Fin 2000) (k : Fin 128) :
    k0_pay1 (F := Ideal) x0 x1 v6 (ix3 u r k) = ∑ i : Fin 256, (x0 (ix2 r i) * x1 (ix2 r 0)) * v6 (ix3 0 k i) := by
  unfold k0_pay1
  refine (blk3_apply _ u r k).trans ?_
  refine (mm_apply _ _ r k).trans ?_
  refine Finset.sum_congr rfl fun i _ => ?_
  show x0 (ix2 r i) * broadcastTo S2000x256 x1 broadcasts_S2000x1_S2000x256 (ix2 r i) * shapeCast S128x256 v6 shapeCasts_S1x128x256_S128x256 (ix2 k i) = _
  exact congrArg₂ (fun a b => x0 (ix2 r i) * a * b) (spread_apply x1 r i) (wslab2_apply v6 k i)

/-! ## From the blocks to the array -/

/-- The printed index maps, decided once over the 225 grid points (25 node blocks by 9 divisions, the division
    fastest): the feature and scale blocks follow the node block, the weights are fetched whole, the output block is
    (division, node block, 0), and the body's slab offset is the division. -/
theorem grid_facts : ∀ t : Fin cfg0.N,
    win0_0.index t (0 : Fin 2) = t.val / 9 ∧ win0_0.index t (1 : Fin 2) = 0
    ∧ win0_1.index t (0 : Fin 2) = t.val / 9 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = t.val % 9 ∧ win0_3.index t (1 : Fin 3) = t.val / 9 ∧ win0_3.index t (2 : Fin 3) = 0
    ∧ k0_off1 (grid0.coords t) (0 : Fin 3) = t.val % 9 ∧ k0_off1 (grid0.coords t) (1 : Fin 3) = 0
    ∧ k0_off1 (grid0.coords t) (2 : Fin 3) = 0 :=
  (by decide +kernel : ∀ t : Fin grid0.N, _)

section Blocks
variable (V : (c : Dev nD) → (b : Ref sig .tc) → Buf (Elt Ideal) ((c : Thread nD τ).loc b)) (c : Dev nD)

/-- The three input blocks at a point, each at its literal type. -/
abbrev fblk (t : Fin cfg0.N) : Vec Ideal S2000x256 .f32 := iblk0 (F := Ideal) V c 0 t
abbrev nblk (t : Fin cfg0.N) : Vec Ideal S2000x1 .f32 := iblk0 (F := Ideal) V c 1 t
abbrev wblk (t : Fin cfg0.N) : Vec Ideal S9x128x256 .f32 := iblk0 (F := Ideal) V c 2 t

/-- The whole array the region leaves, index by index. -/
abbrev hcatFn : S9x50000x128.Idx → EReal :=
  fun j => ∑ i : Fin 256, (featA V c (ix2 (j 1) i) * nrmA V c (ix2 (j 1) 0)) * wcatA V c (ix3 (j 0) (j 2) i)

/-- Row r of the feature block at point t is node (t / 9) · 2000 + r of the features. -/
theorem fblk_apply (t : Fin cfg0.N) (r : Fin 2000) (i : Fin 256) (n : Fin 50000) (hn : n.val = t.val / 9 * 2000 + r.val) :
    fblk V c t (ix2 r i) = featA V c (ix2 n i) := by
  obtain ⟨e0, e1, -⟩ := grid_facts t
  show V c main_arg0 (((cfg0.win 0).blk t).view.emb (ix2 r i)) = V c main_arg0 (ix2 n i)
  refine congrArg (V c main_arg0) (funext fun a => Fin.ext ?_)
  match a with
  | ⟨0, _⟩ => show win0_0.index t (0 : Fin 2) * 2000 + 1 * r.val = n.val; omega
  | ⟨1, _⟩ => show win0_0.index t (1 : Fin 2) * 256 + 1 * i.val = i.val; omega

/-- Row r of the scale block at point t is the scale of node (t / 9) · 2000 + r. -/
theorem nblk_apply (t : Fin cfg0.N) (r : Fin 2000) (n : Fin 50000) (hn : n.val = t.val / 9 * 2000 + r.val) :
    nblk V c t (ix2 r 0) = nrmA V c (ix2 n 0) := by
  obtain ⟨-, -, e2, e3, -⟩ := grid_facts t
  show V c main_arg1 (((cfg0.win 1).blk t).view.emb (ix2 r 0)) = V c main_arg1 (ix2 n 0)
  refine congrArg (V c main_arg1) (funext fun a => Fin.ext ?_)
  match a with
  | ⟨0, _⟩ => show win0_1.index t (0 : Fin 2) * 2000 + 1 * r.val = n.val; omega
  | ⟨1, _⟩ => show win0_1.index t (1 : Fin 2) * 1 + 1 * 0 = 0; omega

/-- The slab the body loads at point t is row t % 9 of the weights. -/
theorem wslab_apply (t : Fin cfg0.N) (k : Fin 128) (i : Fin 256) (d : Fin 9) (hd : d.val = t.val % 9) :
    wslab (grid0.coords t) (wblk V c t) (ix3 0 k i) = wcatA V c (ix3 d k i) := by
  obtain ⟨-, -, -, -, e4, e5, e6, -, -, -, e10, e11, e12⟩ := grid_facts t
  show V c main_v4 (((cfg0.win 2).blk t).view.emb
      ((Rect.unit (s := S9x128x256) (k0_off1 (grid0.coords t)) S1x128x256.size (k0_off1_inb (grid0.coords t))).idx (ix3 0 k i)))
    = V c main_v4 (ix3 d k i)
  refine congrArg (V c main_v4) (funext fun a => Fin.ext ?_)
  match a with
  | ⟨0, _⟩ => show win0_2.index t (0 : Fin 3) * 9 + 1 * (k0_off1 (grid0.coords t) (0 : Fin 3) + 1 * 0) = d.val; omega
  | ⟨1, _⟩ => show win0_2.index t (1 : Fin 3) * 128 + 1 * (k0_off1 (grid0.coords t) (1 : Fin 3) + 1 * k.val) = k.val; omega
  | ⟨2, _⟩ => show win0_2.index t (2 : Fin 3) * 256 + 1 * (k0_off1 (grid0.coords t) (2 : Fin 3) + 1 * i.val) = i.val; omega

/-- The body's payload at point t, entry by entry, is the array's function at the entry's place in the array. -/
theorem block_value (t : Fin cfg0.N) (y : S1x2000x128.Idx) :
    k0_pay1 (F := Ideal) (fblk V c t) (nblk V c t) (wslab (grid0.coords t) (wblk V c t)) y
      = hcatFn V c (((cfg0.win 3).blk t).view.emb y) := by
  obtain ⟨u, r, k, rfl⟩ : ∃ (u : Fin 1) (r : Fin 2000) (k : Fin 128), y = ix3 u r k := ⟨y 0, y 1, y 2, eq_ix3 y⟩
  obtain ⟨-, -, -, -, -, -, -, e7, e8, e9, -⟩ := grid_facts t
  have hu : u.val = 0 := by omega
  refine (pay_apply (fblk V c t) (nblk V c t) (wslab (grid0.coords t) (wblk V c t)) u r k).trans ?_
  refine Finset.sum_congr rfl fun i _ => ?_
  have c0 : ((((cfg0.win 3).blk t).view.emb (ix3 u r k)) 0).val = t.val % 9 := by
    show win0_3.index t (0 : Fin 3) * 1 + 1 * u.val = _; omega
  have c1 : ((((cfg0.win 3).blk t).view.emb (ix3 u r k)) 1).val = t.val / 9 * 2000 + r.val := by
    show win0_3.index t (1 : Fin 3) * 2000 + 1 * r.val = _; omega
  have c2 : (((cfg0.win 3).blk t).view.emb (ix3 u r k)) 2 = k := Fin.ext (by
    show win0_3.index t (2 : Fin 3) * 128 + 1 * k.val = _; omega)
  show (fblk V c t (ix2 r i) * nblk V c t (ix2 r 0)) * wslab (grid0.coords t) (wblk V c t) (ix3 0 k i)
    = (featA V c (ix2 ((((cfg0.win 3).blk t).view.emb (ix3 u r k)) 1) i) * nrmA V c (ix2 ((((cfg0.win 3).blk t).view.emb (ix3 u r k)) 1) 0))
      * wcatA V c (ix3 ((((cfg0.win 3).blk t).view.emb (ix3 u r k)) 0) ((((cfg0.win 3).blk t).view.emb (ix3 u r k)) 2) i)
  rw [c2, fblk_apply V c t r i _ c1, nblk_apply V c t r _ c1, wslab_apply V c t k i _ c0]

/-- What point t writes back is its block of the array's function. -/
theorem writeback_eq (t : Fin cfg0.N) :
    (dat0 (F := Ideal) V c).flushed 3 t = ((cfg0.win 3).blk t).view.read (Elt Ideal) (hcatFn V c) := by
  show (cfg0.win 3).cut (grid0.coords t) ((dat0 (F := Ideal) V c).after 3 t) = _
  rw [after0_3]
  unfold outsAt0
  rw [staged_eq]
  funext y
  exact block_value V c t y

/-- An index of the array is in point t's block iff each coordinate is in the block's range on its axis. -/
theorem mem_outblk (t : Fin cfg0.N) (j : S9x50000x128.Idx) :
    j ∈ ((cfg0.win 3).blk t).view.set ↔ ∀ a : Fin 3, win0_3.index t a * S1x2000x128.size a ≤ (j a).val ∧ (j a).val < win0_3.index t a * S1x2000x128.size a + S1x2000x128.size a := by
  show j ∈ ((View.whole main_v5).slice (win0_3.rect t)).set ↔ _
  rw [View.set_slice_whole, Rect.mem_set_unit]
  exact Iff.rfl

/-- Entry (d, n, k) is written by the point of node block n / 2000 and division d. -/
theorem outblk_cover (j : S9x50000x128.Idx) :
    ∃ t : Fin cfg0.N, (cfg0.win 3).flush t = true ∧ j ∈ ((cfg0.win 3).blk t).view.set := by
  have h0 : (j 0).val < 9 := (j 0).isLt
  have h1 : (j 1).val < 50000 := (j 1).isLt
  have h2 : (j 2).val < 128 := (j 2).isLt
  have hN : cfg0.N = 225 := N_0
  let t : Fin cfg0.N := ⟨(j 1).val / 2000 * 9 + (j 0).val, by rw [hN]; omega⟩
  have ht : t.val = (j 1).val / 2000 * 9 + (j 0).val := rfl
  obtain ⟨-, -, -, -, -, -, -, e7, e8, e9, -⟩ := grid_facts t
  refine ⟨t, flush0_3 t, ?_⟩
  rw [mem_outblk]
  intro a
  match a with
  | ⟨0, _⟩ => show win0_3.index t (0 : Fin 3) * 1 ≤ (j 0).val ∧ (j 0).val < win0_3.index t (0 : Fin 3) * 1 + 1; omega
  | ⟨1, _⟩ => show win0_3.index t (1 : Fin 3) * 2000 ≤ (j 1).val ∧ (j 1).val < win0_3.index t (1 : Fin 3) * 2000 + 2000; omega
  | ⟨2, _⟩ => show win0_3.index t (2 : Fin 3) * 128 ≤ (j 2).val ∧ (j 2).val < win0_3.index t (2 : Fin 3) * 128 + 128; omega

end Blocks

/-- The first region's output array after the region, from the region-entry contents `V`: every entry the
    scaled feature row against the weight row, summed over the input features. -/
theorem arr0 (V : (c : Dev nD) → (b : Ref sig .tc) → Buf (Elt Ideal) ((c : Thread nD τ).loc b)) (c : Dev nD) :
    hcatA V c = fun j => ∑ i : Fin 256, (featA V c (ix2 (j 1) i) * nrmA V c (ix2 (j 1) 0)) * wcatA V c (ix3 (j 0) (j 2) i) :=
  (dat0 (F := Ideal) V c).arrAt_eq_of_cover 3 (hcatFn V c) (fun t _ => writeback_eq V c t) outblk_cover

end Cert.KernelIdeal.R0Value

end
-- ==== Proof.R1Value.lean ====
/-
  What the second region leaves in the result array.

  The region walks 125 blocks of 400 nodes. At a block the body scales the aggregated messages [400, 9, 128] by the
  nodes' scale [400, 1], takes the maximum with zero, and lays the eighteen [400, 64] pieces (division d, head h)
  side by side in the order h·576 + d·64 + o. So the whole result array is, index by index,

      out n c = max (agg3 n (d of c) (h·64 + o of c) · nrm n) 0 .
-/
import proofs.«425970_j89361089560784_1_alg».proof.Proof.Gen.KernelIdeal.Frame
import proofs.«425970_j89361089560784_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.R1Value

open Cert.KernelIdeal Cert.KernelIdeal.Gen Idealize.ShloMosaic Idealize.ShloMosaic.TcCoe Idealize.ShloMosaic.ValueIdx Idealize.SL.Sem

/-- The column of the aggregated array [50000, 9, 128] that output column `c` reads: head · 64 + feature. -/
def cOf (c : Fin 1152) : Fin 128 :=
  ⟨(Cert.Spec.hOf c).val * 64 + (Cert.Spec.oOf c).val, by
    have h1 := (Cert.Spec.hOf c).isLt; have h2 := (Cert.Spec.oOf c).isLt; omega⟩

/-- The region-entry contents of the two input arrays and the result array after the region, each at its literal
    type (extended reals indexed by the array's shape). -/
abbrev aggA (V : (c : Dev nD) → (b : Ref sig .tc) → Buf (Elt Ideal) ((c : Thread nD τ).loc b)) (c : Dev nD) :
    S50000x9x128.Idx → EReal := V c main_v21
abbrev nrmA (V : (c : Dev nD) → (b : Ref sig .tc) → Buf (Elt Ideal) ((c : Thread nD τ).loc b)) (c : Dev nD) :
    S50000x1.Idx → EReal := V c main_arg1
abbrev outA (V : (c : Dev nD) → (b : Ref sig .tc) → Buf (Elt Ideal) ((c : Thread nD τ).loc b)) (c : Dev nD) :
    S50000x1152.Idx → EReal := (dat1 (F := Ideal) V c).arrAt 2 cfg1.N

/-! ## The payload at an index -/

section Pieces
variable {α : Type}

/-- The shape fact of the slice [400, 1, 64] of a [400, 9, 128] vector at division `d` and column offset `off`. -/
theorem slices_piece (d : Fin 9) (off : Nat) (hoff : off + 64 ≤ 128) : S400x9x128.Slices ![0, d.val, off] S400x1x64 :=
  ⟨rfl, fun a => match a with
    | ⟨0, _⟩ => by show 0 + 400 ≤ 400; omega
    | ⟨1, _⟩ => by have := d.isLt; show d.val + 1 ≤ 9; omega
    | ⟨2, _⟩ => by show off + 64 ≤ 128; omega⟩

/-- The [400, 64] piece of a [400, 9, 128] vector at division `d`, columns `off … off + 63`. -/
def piece (v : S400x9x128.Idx → α) (off : Nat) (hoff : off + 64 ≤ 128) (d : Fin 9) : S400x64.Idx → α :=
  shapeCast S400x64 (extractStridedSlice S400x1x64 ![0, d.val, off] v (slices_piece d off hoff)) Facts₀.shapeCasts_S400x1x64_S400x64

/-- A piece at row `r`, column `o`: the vector at (`r`, `d`, `off + o`). -/
theorem piece_apply (v : S400x9x128.Idx → α) (off : Nat) (hoff : off + 64 ≤ 128) (d : Fin 9) (r : Fin 400) (o : Fin 64) :
    piece v off hoff d (ix2 r o) = v (ix3 r d ⟨off + o.val, by have := o.isLt; omega⟩) := by
  unfold piece
  refine (shapeCast_apply _ _ (ix2 r o) (ix3 r (0 : Fin 1) o) (by
    rw [Shape.rowMajor_val_two, Shape.rowMajor_val_three]
    show (r.val * 1 + 0) * 64 + o.val = r.val * 64 + o.val
    omega)).trans ?_
  exact extractStridedSlice_apply _ _ _ _ _ (fun a => match a with
    | ⟨0, _⟩ => by show r.val = 0 + r.val; omega
    | ⟨1, _⟩ => by show d.val = d.val + 0; omega
    | ⟨2, _⟩ => by show off + o.val = off + o.val; rfl)

/-- Nine [400, 64] pieces laid side by side along the columns, read at column `q`: piece `q / 64` at column `q % 64`. -/
theorem cat9_apply (p : Fin 9 → (S400x64.Idx → α))
    (h : Shape.Concatenates ([(⟨S400x64, p 0⟩ : (s : Shape) × (s.Idx → α)), ⟨S400x64, p 1⟩, ⟨S400x64, p 2⟩, ⟨S400x64, p 3⟩, ⟨S400x64, p 4⟩,
      ⟨S400x64, p 5⟩, ⟨S400x64, p 6⟩, ⟨S400x64, p 7⟩, ⟨S400x64, p 8⟩].map (·.1)) S400x576 1)
    (r : Fin 400) (q : Fin 576) :
    concatenate S400x576 1 [⟨S400x64, p 0⟩, ⟨S400x64, p 1⟩, ⟨S400x64, p 2⟩, ⟨S400x64, p 3⟩, ⟨S400x64, p 4⟩,
      ⟨S400x64, p 5⟩, ⟨S400x64, p 6⟩, ⟨S400x64, p 7⟩, ⟨S400x64, p 8⟩] h (ix2 r q)
      = p ⟨q.val / 64, by have := q.isLt; omega⟩ (ix2 r ⟨q.val % 64, Nat.mod_lt _ (by decide)⟩) :=
  concatenate_ofFn_apply (t := S400x576) (s₁ := S400x64) 1 p h rfl 64 rfl (ix2 r q) ⟨q.val / 64, by have := q.isLt; omega⟩ rfl
    (ix2 r ⟨q.val % 64, Nat.mod_lt _ (by decide)⟩) rfl
    (fun b hb => match b with
      | ⟨0, _⟩ => rfl
      | ⟨1, _⟩ => absurd rfl hb)

/-- One half of the result block: the nine divisions' pieces at column offset `off`, side by side. -/
def half (v : S400x9x128.Idx → α) (off : Nat) (hoff : off + 64 ≤ 128) : S400x576.Idx → α :=
  concatenate S400x576 1 [⟨S400x64, piece v off hoff 0⟩, ⟨S400x64, piece v off hoff 1⟩, ⟨S400x64, piece v off hoff 2⟩,
    ⟨S400x64, piece v off hoff 3⟩, ⟨S400x64, piece v off hoff 4⟩, ⟨S400x64, piece v off hoff 5⟩, ⟨S400x64, piece v off hoff 6⟩,
    ⟨S400x64, piece v off hoff 7⟩, ⟨S400x64, piece v off hoff 8⟩]
    Facts₀.concatenates_S400x64_S400x64_S400x64_S400x64_S400x64_S400x64_S400x64_S400x64_S400x64_S400x576_d1

/-- A half at row `r`, column `q`: division `q / 64`, column `off + q % 64` of the vector. -/
theorem half_apply (v : S400x9x128.Idx → α) (off : Nat) (hoff : off + 64 ≤ 128) (r : Fin 400) (q : Fin 576) :
    half v off hoff (ix2 r q)
      = v (ix3 r ⟨q.val / 64, by have := q.isLt; omega⟩ ⟨off + q.val % 64, by have := Nat.mod_lt q.val (show 0 < 64 by decide); omega⟩) := by
  unfold half
  rw [cat9_apply (piece v off hoff), piece_apply]

end Pieces

/-- The block the body computes before laying it out: the aggregated block scaled row by row, rectified. -/
def act (x0 : Vec Ideal S400x9x128 .f32) (x1 : Vec Ideal S400x1 .f32) : FVec Ideal S400x9x128 .f32 :=
  maximumf (mulf (shapeCast S400x9x128 x0 Facts₀.shapeCasts_S400x9x128_S400x9x128)
      (broadcastTo S400x9x128 (shapeCast S400x1x1 x1 Facts₀.shapeCasts_S400x1_S400x1x1) Facts₀.broadcasts_S400x1x1_S400x9x128))
    (broadcast S400x9x128 (Scalar.ofBits .f32 0x00000000#32))

/-- At (`r`, `d`, `k`) it is the rectified product of the block's entry with row `r`'s scale. -/
theorem act_apply (x0 : Vec Ideal S400x9x128 .f32) (x1 : Vec Ideal S400x1 .f32) (r : Fin 400) (d : Fin 9) (k : Fin 128) :
    act x0 x1 (ix3 r d k) = max (x0 (ix3 r d k) * x1 (ix2 r 0)) 0 := by
  unfold act
  rw [maximumf_apply, mulf_apply, shapeCast_self, broadcast_apply]
  rw [broadcastTo_apply _ _ (ix3 r d k) (ix3 r (0 : Fin 1) (0 : Fin 1)) (fun a => match a with
    | ⟨0, _⟩ => rfl
    | ⟨1, _⟩ => rfl
    | ⟨2, _⟩ => rfl)]
  rw [shapeCast_apply _ _ (ix3 r (0 : Fin 1) (0 : Fin 1)) (ix2 r (0 : Fin 1)) (by
    rw [Shape.rowMajor_val_two, Shape.rowMajor_val_three]
    show r.val * 1 + 0 = (r.val * 1 + 0) * 1 + 0
    omega)]
  congr 1
  exact Ideal.ofBits_zero_f32

/-- The payload is the two halves of the rectified scaled block, side by side. -/
theorem pay_eq (x0 : Vec Ideal S400x9x128 .f32) (x1 : Vec Ideal S400x1 .f32) :
    k1_pay1 x0 x1 = concatenate S400x1152 1 [⟨S400x576, half (act x0 x1) 0 (by decide)⟩, ⟨S400x576, half (act x0 x1) 64 (by decide)⟩]
      Facts₀.concatenates_S400x576_S400x576_S400x1152_d1 := rfl

/-- THE PAYLOAD AT AN INDEX: row `r`, column `q` of what the body stores is the rectified product of the aggregated block at
    (`r`, division of `q`, head · 64 + feature of `q`) with row `r`'s scale. -/
theorem pay_apply (x0 : Vec Ideal S400x9x128 .f32) (x1 : Vec Ideal S400x1 .f32) (r : Fin 400) (q : Fin 1152) :
    k1_pay1 x0 x1 (ix2 r q) = max (x0 (ix3 r (Cert.Spec.dOf q) (cOf q)) * x1 (ix2 r 0)) 0 := by
  have hq := q.isLt
  rw [pay_eq]
  by_cases hlt : q.val < 576
  · -- the first half: head 0
    rw [concatenate_pair_apply_left (t := S400x1152) (s₁ := S400x576) (s₂ := S400x576) 1 _ _ _ (ix2 r q) rfl (ix2 r (⟨q.val, hlt⟩ : Fin 576) : S400x576.Idx) (fun b => match b with
      | ⟨0, _⟩ => rfl
      | ⟨1, _⟩ => rfl)]
    rw [half_apply, act_apply]
    have hd : (⟨q.val / 64, by omega⟩ : Fin 9) = Cert.Spec.dOf q := Fin.ext (by show q.val / 64 = q.val % 576 / 64; omega)
    have hc : (⟨0 + q.val % 64, by omega⟩ : Fin 128) = cOf q := Fin.ext (by show 0 + q.val % 64 = q.val / 576 * 64 + q.val % 64; omega)
    rw [hd, hc]
  · -- the second half: head 1
    rw [concatenate_pair_apply_right (t := S400x1152) (s₁ := S400x576) (s₂ := S400x576) 1 _ _ _ (ix2 r q) rfl rfl (ix2 r (⟨q.val - 576, by omega⟩ : Fin 576) : S400x576.Idx)
      (fun b hb => match b with
        | ⟨0, _⟩ => rfl
        | ⟨1, _⟩ => absurd rfl hb)
      (by show q.val - 576 + 576 = q.val; omega)]
    rw [half_apply, act_apply]
    have hd : (⟨(q.val - 576) / 64, by omega⟩ : Fin 9) = Cert.Spec.dOf q := Fin.ext (by show (q.val - 576) / 64 = q.val % 576 / 64; omega)
    have hc : (⟨64 + (q.val - 576) % 64, by omega⟩ : Fin 128) = cOf q :=
      Fin.ext (by show 64 + (q.val - 576) % 64 = q.val / 576 * 64 + q.val % 64; omega)
    rw [hd, hc]

/-! ## From blocks to the array -/

/-- The zero offsets of a whole-block access, as the constant function. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The whole result array as one function of the aggregated array and the scale. -/
def rectified (A : S50000x9x128.Idx → EReal) (N : S50000x1.Idx → EReal) : S50000x1152.Idx → EReal :=
  fun j => max (A (ix3 (j 0) (Cert.Spec.dOf (j 1)) (cOf (j 1))) * N (ix2 (j 0) 0)) 0

/-- The printed index maps over the 125 points: along the nodes every window's block index is the point's number, and on
    every other axis it is 0. -/
theorem idx_facts : ∀ t : Fin cfg1.N, win1_2.index t (0 : Fin 2) = t.val ∧ win1_2.index t (1 : Fin 2) = 0
    ∧ win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, win1_2.index t (0 : Fin 2) = t.val ∧ win1_2.index t (1 : Fin 2) = 0
    ∧ win1_0.index t (0 : Fin 3) = t.val ∧ win1_0.index t (1 : Fin 3) = 0 ∧ win1_0.index t (2 : Fin 3) = 0
    ∧ win1_1.index t (0 : Fin 2) = t.val ∧ win1_1.index t (1 : Fin 2) = 0)

/-- ONE ELEMENT OF A BLOCK: if the two input blocks hold, at row `r`, what the arrays hold at node `n`, the payload at
    (`r`, `q`) is the whole-array function at (`n`, `q`). -/
theorem point_eq (A : S50000x9x128.Idx → EReal) (N : S50000x1.Idx → EReal) (x0 : Vec Ideal S400x9x128 .f32) (x1 : Vec Ideal S400x1 .f32)
    (n : Fin 50000) (r : Fin 400) (q : Fin 1152)
    (h0 : x0 (ix3 r (Cert.Spec.dOf q) (cOf q)) = A (ix3 n (Cert.Spec.dOf q) (cOf q))) (h1 : x1 (ix2 r 0) = N (ix2 n 0)) :
    k1_pay1 x0 x1 (ix2 r q) = rectified A N (ix2 n q) := by
  rw [pay_apply, h0, h1]
  rfl

/-- WHAT POINT `t` WRITES BACK is block `t` of `rectified` of the two input arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (rectified (aggA V c) (nrmA V c)) := by
  show (cfg1.win 2).cut (grid1.coords t) ((dat1 (F := Ideal) V c).after 2 t) = _
  rw [after1_2]
  unfold out1_2
  rw [View.canon_unit_zero zeros2]
  simp only [View.ld_unit_zero (S := S400x9x128) zeros3, View.ld_unit_zero (S := S400x1) zeros2]
  obtain ⟨e0, e1, e2, e3, e4, e5, e6⟩ := idx_facts t
  funext j
  obtain ⟨r, q, rfl⟩ : ∃ (r : Fin 400) (q : Fin 1152), j = ix2 r q := ⟨j 0, j 1, eq_ix2 j⟩
  have hr := r.isLt
  have hq := q.isLt
  have ht : t.val < 125 := lt_of_lt_of_eq t.isLt N_1
  -- the node the block's row `r` is at point `t`
  obtain ⟨n, hn⟩ : ∃ n : Fin 50000, n.val = t.val * 400 + r.val := ⟨⟨t.val * 400 + r.val, by omega⟩, rfl⟩
  have hE : ((cfg1.win 2).blk t).view.emb (ix2 r q) = (ix2 n q : S50000x1152.Idx) := by
    funext a; apply Fin.ext
    match a with
    | ⟨0, _⟩ => show win1_2.index t (0 : Fin 2) * 400 + 1 * r.val = n.val; omega
    | ⟨1, _⟩ => show win1_2.index t (1 : Fin 2) * 1152 + 1 * q.val = q.val; omega
  show k1_pay1 (iblk1 V c 0 t) (iblk1 V c 1 t) (ix2 r q) = rectified (aggA V c) (nrmA V c) (((cfg1.win 2).blk t).view.emb (ix2 r q))
  rw [hE]
  refine point_eq (aggA V c) (nrmA V c) (iblk1 V c 0 t) (iblk1 V c 1 t) n r q ?_ ?_
  · show aggA V c (((cfg1.win 0).blk t).view.emb (ix3 r (Cert.Spec.dOf q) (cOf q))) = aggA V c (ix3 n (Cert.Spec.dOf q) (cOf q))
    refine congrArg (aggA V c) (funext fun a => Fin.ext ?_)
    match a with
    | ⟨0, _⟩ => show win1_0.index t (0 : Fin 3) * 400 + 1 * r.val = n.val; omega
    | ⟨1, _⟩ => show win1_0.index t (1 : Fin 3) * 9 + 1 * (Cert.Spec.dOf q).val = (Cert.Spec.dOf q).val; omega
    | ⟨2, _⟩ => show win1_0.index t (2 : Fin 3) * 128 + 1 * (cOf q).val = (cOf q).val; omega
  · show nrmA V c (((cfg1.win 1).blk t).view.emb (ix2 r (0 : Fin 1))) = nrmA V c (ix2 n (0 : Fin 1))
    refine congrArg (nrmA V c) (funext fun a => Fin.ext ?_)
    match a with
    | ⟨0, _⟩ => show win1_1.index t (0 : Fin 2) * 400 + 1 * r.val = n.val; omega
    | ⟨1, _⟩ => show win1_1.index t (1 : Fin 2) * 1 + 1 * 0 = 0; omega

/-- An index of the array is in point `t`'s block iff each coordinate is in the block's range on its axis. -/
theorem mem_blk (t : Fin cfg1.N) (i : S50000x1152.Idx) :
    i ∈ ((cfg1.win 2).blk t).view.set ↔ ∀ a : Fin 2, win1_2.index t a * S400x1152.size a ≤ (i a).val
      ∧ (i a).val < win1_2.index t a * S400x1152.size a + S400x1152.size a := by
  show i ∈ ((View.whole main_v22).slice (win1_2.rect t)).set ↔ _
  rw [View.set_slice_whole, Rect.mem_set_unit]
  exact Iff.rfl

/-- THE COVER: node `n`'s row of the result is in the block of point `n / 400`, which writes back. -/
theorem covered (i : S50000x1152.Idx) : ∃ t : Fin cfg1.N, (cfg1.win 2).flush t = true ∧ i ∈ ((cfg1.win 2).blk t).view.set := by
  have hi0 : (i 0).val < 50000 := (i 0).isLt
  have hi1 : (i 1).val < 1152 := (i 1).isLt
  obtain ⟨t, ht⟩ : ∃ t : Fin cfg1.N, t.val = (i 0).val / 400 :=
    ⟨⟨(i 0).val / 400, by show _ < grid1.N; rw [N_1]; omega⟩, rfl⟩
  obtain ⟨e0, e1, -⟩ := idx_facts t
  refine ⟨t, flush1_2 t, ?_⟩
  rw [mem_blk]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 1152 ≤ (i 1).val ∧ (i 1).val < win1_2.index t (1 : Fin 2) * 1152 + 1152; omega

/-- The result array after the second region, from the region-entry contents `V`: every entry the rectified,
    scaled aggregate its column names. -/
theorem arr1 (V : (c : Dev nD) → (b : Ref sig .tc) → Buf (Elt Ideal) ((c : Thread nD τ).loc b)) (c : Dev nD) :
    outA V c = fun j => max (aggA V c (ix3 (j 0) (Cert.Spec.dOf (j 1)) (cOf (j 1))) * nrmA V c (ix2 (j 0) 0)) 0 :=
  (dat1 (F := Ideal) V c).arrAt_eq_of_cover 2 (rectified (aggA V c) (nrmA V c)) (fun t _ => flushed_eq V c t) covered

end Cert.KernelIdeal.R1Value

end
-- ==== Proof.KValue.lean ====
/-
  The kernel's result array is the specification's `out`.

  The result is what the second region leaves: max (agg3 n d (h·64 + o) · nrm n) 0. The aggregate agg3 is the middle
  stretch's function of the first region's output: the sum, over the edges into n of relation d, of
  hcat (rel e) (src e) (h·64 + o). And hcat r s k = ∑ i, (feat s i · nrm s) · wcat r k i with wcat r (h·64 + o) i =
  W h r o i. Substituting bottom-up gives `Spec.out` term by term: no algebra is needed, the kernel's order of
  factors and of summation is the specification's.
-/
import proofs.«425970_j89361089560784_1_alg».proof.Proof.KGlue
import proofs.«425970_j89361089560784_1_alg».proof.Proof.R0Value
import proofs.«425970_j89361089560784_1_alg».proof.Proof.R1Value

set_option maxRecDepth 16384

noncomputable section

namespace Cert.KernelIdeal.KValue

open Cert.KernelIdeal Cert.KernelIdeal.Gen Cert.KernelIdeal.Mid Cert.KernelIdeal.Glue
open Idealize.ShloMosaic Idealize.ShloMosaic.TcCoe Idealize.ShloMosaic.ValueIdx Idealize.SL.Sem

/-- Column h·64 + o of the aggregate belongs to head h … -/
theorem cOf_div (q : Fin 1152) : (R1Value.cOf q).val / 64 = (Cert.Spec.hOf q).val := by
  have h2 := (Cert.Spec.oOf q).isLt
  show ((Cert.Spec.hOf q).val * 64 + (Cert.Spec.oOf q).val) / 64 = _
  omega
/-- … and output feature o. -/
theorem cOf_mod (q : Fin 1152) : (R1Value.cOf q).val % 64 = (Cert.Spec.oOf q).val := by
  have h2 := (Cert.Spec.oOf q).isLt
  show ((Cert.Spec.hOf q).val * 64 + (Cert.Spec.oOf q).val) % 64 = _
  omega

variable (m : (ℓ : Loc nD τ sig) → Buf (Elt Ideal) ℓ) (ρ : Dev nD → PrngReg)

/-- The launched arguments at their literal types. -/
abbrev feat0 (c : Dev nD) : S50000x256.Idx → EReal := m ((c : Thread nD τ).loc main_arg0)
abbrev nrm0 (c : Dev nD) : S50000x1.Idx → EReal := m ((c : Thread nD τ).loc main_arg1)
abbrev wt0 (c : Dev nD) : S2x9x64x256.Idx → EReal := m ((c : Thread nD τ).loc main_arg2)
abbrev ei0 (c : Dev nD) : IVec S2x800000 32 := m ((c : Thread nD τ).loc main_arg3)
abbrev er0 (c : Dev nD) : IVec S800000 32 := m ((c : Thread nD τ).loc main_arg4)
/-- The result buffer at the last boundary of the contents fold. -/
abbrev res (c : Dev nD) : S50000x1152.Idx → EReal := W6 m ρ c (Proc.devRef .tc main_v22)

/-- The first region's output array at the region's exit. -/
abbrev hcat2 (c : Dev nD) : S9x50000x128.Idx → EReal := W2 m ρ c (Proc.devRef .tc main_v5)

/-- The first region's output at (r, s, h·64 + o) is the transformed feature row `lin h r s o`. -/
theorem hcat_eq (c : Dev nD) (r : Fin 9) (s : Fin 50000) (q : Fin 1152) :
    hcat2 m ρ c (ix3 r s (R1Value.cOf q))
      = Cert.Spec.lin (feat0 m c) (nrm0 m c) (wt0 m c) (Cert.Spec.hOf q) r s (Cert.Spec.oOf q) := by
  have h5 : hcat2 m ρ c = R0Value.hcatA (V1 m ρ) c := W2_v5 m ρ c
  have e0 : R0Value.featA (V1 m ρ) c = feat0 m c := V1_arg0 m ρ c
  have e1 : R0Value.nrmA (V1 m ρ) c = nrm0 m c := V1_arg1 m ρ c
  have e2 : R0Value.wcatA (V1 m ρ) c = wcat (F := Ideal) (wt0 m c) := by
    show V1 m ρ c main_v4 = _
    exact V1_v4 m ρ c
  rw [h5, R0Value.arr0]
  show (∑ i : Fin 256, (R0Value.featA (V1 m ρ) c (ix2 s i) * R0Value.nrmA (V1 m ρ) c (ix2 s 0))
          * R0Value.wcatA (V1 m ρ) c (ix3 r (R1Value.cOf q) i))
      = ∑ i : Fin 256, (feat0 m c (ix2 s i) * nrm0 m c (ix2 s 0)) * wt0 m c (ix4 (Cert.Spec.hOf q) r (Cert.Spec.oOf q) i)
  refine Finset.sum_congr rfl fun i _ => ?_
  rw [e0, e1, e2, wcat_apply]
  refine congrArg (fun x => (feat0 m c (ix2 s i) * nrm0 m c (ix2 s 0)) * wt0 m c x) ?_
  funext a
  match a with
  | ⟨0, _⟩ => exact Fin.ext (cOf_div q)
  | ⟨1, _⟩ => rfl
  | ⟨2, _⟩ => exact Fin.ext (cOf_mod q)
  | ⟨3, _⟩ => rfl

/-- The kernel's result array, with the tables read as coordinates, is the specification's result. -/
theorem result_eq (c : Dev nD) {rel : Fin 800000 → Fin 9} {src dst : Fin 800000 → Fin 50000}
    (T : Cert.Spec.Tables (ei0 m c) (er0 m c) rel src dst) :
    res m ρ c = Cert.Spec.out (feat0 m c) (nrm0 m c) (wt0 m c) rel src dst := by
  have h1 : res m ρ c = R1Value.outA (V5 m ρ) c := W6_arr m ρ c 2
  have hn : R1Value.nrmA (V5 m ρ) c = nrm0 m c := V5_arg1 m ρ c
  have ha : R1Value.aggA (V5 m ρ) c = mid (F := Ideal) (hcat2 m ρ c) (ei0 m c) (er0 m c) := V5_v21 m ρ c
  rw [h1, R1Value.arr1]
  funext j
  show max (R1Value.aggA (V5 m ρ) c (ix3 (j 0) (Cert.Spec.dOf (j 1)) (R1Value.cOf (j 1))) * R1Value.nrmA (V5 m ρ) c (ix2 (j 0) 0)) 0
      = max (Cert.Spec.agg (feat0 m c) (nrm0 m c) (wt0 m c) rel src dst (j 0) (Cert.Spec.dOf (j 1)) (Cert.Spec.hOf (j 1)) (Cert.Spec.oOf (j 1)) * nrm0 m c (ix2 (j 0) 0)) 0
  rw [hn, ha]
  refine congrArg (fun x => max (x * nrm0 m c (ix2 (j 0) 0)) 0) ?_
  refine (mid_apply T (hcat2 m ρ c) (j 0) (Cert.Spec.dOf (j 1)) (R1Value.cOf (j 1))).trans ?_
  unfold Cert.Spec.agg
  refine Finset.sum_congr rfl fun e _ => ?_
  by_cases h : dst e = j 0 ∧ rel e = Cert.Spec.dOf (j 1)
  · rw [if_pos h, if_pos h]; exact hcat_eq m ρ c (rel e) (src e) (j 1)
  · rw [if_neg h, if_neg h]

end Cert.KernelIdeal.KValue

end
-- ==== Proof.RefValue.lean ====
/-
  The reference's result, read off its run one operation at a time, is the layer's function of the inputs.

  The reference transforms every node per head and division (one contraction over the input features, the weight
  on the left), picks for every edge the row its relation and source name, adds the rows into the bucket
  (relation, target), and lays the buckets out as [node, head · 576 + division · 64 + feature], scaled and
  rectified. With the tables read as coordinates this is the specification's `out`, the product's two factors
  exchanged.
-/
import proofs.«425970_j89361089560784_1_alg».proof.Proof.Gen.ReferenceIdeal.Read
import proofs.«425970_j89361089560784_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.ShloMosaic.ValueIdx Idealize.SL.Sem

/-- A 32-bit word naming a number below 2^31 reads, signed, as that number. -/
theorem toInt_ofNat_small (n : Nat) (hn : n < 2 ^ 31) : (BitVec.ofNat 32 n).toInt = (n : Int) := by
  rw [BitVec.toInt_eq_toNat_of_lt (by rw [BitVec.toNat_ofNat]; omega), BitVec.toNat_ofNat]
  omega

/-- Such a word is not below zero: the signed test against 0 is the bit 0. -/
theorem slt_zero_ofNat (n : Nat) (hn : n < 2 ^ 31) : IntOp.cmpi .slt (BitVec.ofNat 32 n) 0#32 = 0#1 := by
  have h : (BitVec.ofNat 32 n).slt 0#32 = false := by
    rw [BitVec.slt, toInt_ofNat_small n hn]
    simp
  show BitVec.ofBool ((BitVec.ofNat 32 n).slt 0#32) = 0#1
  rw [h]; rfl

section Words
variable (x3 : IVec S2x800000 32) (x4 : IVec S800000 32) {rel : Fin 800000 → Fin 9} {src dst : Fin 800000 → Fin 50000}

/-- The relation column after the wrap of negatives: the test fails, the word is the relation. -/
theorem v12_at (T : Cert.Spec.Tables x3 x4 rel src dst) (e : Fin 800000) :
    Read.val_main_v12 (F := Ideal) x4 (ix1 e) = BitVec.ofNat 32 (rel e).val := by
  rw [Read.val_main_v12_apply, Read.val_main_v9_apply, Read.val_main_v8_apply, Read.val_main_c_apply, T.rel_eq e,
    slt_zero_ofNat _ (by have := (rel e).isLt; omega), select_zero]

/-- Row 1 of the edge table, flattened: the source. -/
theorem v7_at (T : Cert.Spec.Tables x3 x4 rel src dst) (e : Fin 800000) :
    Read.val_main_v7 (F := Ideal) x3 (ix1 e) = BitVec.ofNat 32 (src e).val := by
  rw [Read.val_main_v7_apply, Read.val_main_v6_apply, ← T.src_eq e]
  congr 1
  funext a
  match a with
  | ⟨0, _⟩ => rfl
  | ⟨1, _⟩ => exact Fin.ext (Nat.mod_eq_of_lt e.isLt)

/-- The source column after the wrap of negatives: the test fails, the word is the source. -/
theorem v17_at (T : Cert.Spec.Tables x3 x4 rel src dst) (e : Fin 800000) :
    Read.val_main_v17 (F := Ideal) x3 (ix1 e) = BitVec.ofNat 32 (src e).val := by
  rw [Read.val_main_v17_apply, Read.val_main_v14_apply, Read.val_main_v13_apply, Read.val_main_c_1_apply, v7_at x3 x4 T e,
    slt_zero_ofNat _ (by have := (src e).isLt; omega), select_zero]

/-- Row 0 of the edge table, flattened: the target. -/
theorem v5_at (T : Cert.Spec.Tables x3 x4 rel src dst) (e : Fin 800000) :
    Read.val_main_v5 (F := Ideal) x3 (ix1 e) = BitVec.ofNat 32 (dst e).val := by
  rw [Read.val_main_v5_apply, Read.val_main_v4_apply, ← T.dst_eq e]
  congr 1
  funext a
  match a with
  | ⟨0, _⟩ => rfl
  | ⟨1, _⟩ => exact Fin.ext (Nat.mod_eq_of_lt e.isLt)

/-- relation · 50000 + target as words: the word of that number (below 450000, far from wrapping). -/
theorem v24_at (T : Cert.Spec.Tables x3 x4 rel src dst) (e : Fin 800000) :
    Read.val_main_v24 (F := Ideal) x3 x4 (ix1 e) = BitVec.ofNat 32 ((rel e).val * 50000 + (dst e).val) := by
  rw [Read.val_main_v24_apply, Read.val_main_v23_apply, Read.val_main_v22_apply, Read.val_main_c_3_apply, v5_at x3 x4 T e, T.rel_eq e]
  show BitVec.ofNat 32 (rel e).val * BitVec.ofNat 32 50000 + BitVec.ofNat 32 (dst e).val = _
  rw [← BitVec.ofNat_mul, ← BitVec.ofNat_add]

end Words

section Pairs
variable (x3 : IVec S2x800000 32) (x4 : IVec S800000 32) {rel : Fin 800000 → Fin 9} {src dst : Fin 800000 → Fin 50000}

/-- The index pair's first component is the relation. -/
theorem v20_at0 (T : Cert.Spec.Tables x3 x4 rel src dst) (e : Fin 800000) :
    Read.val_main_v20 (F := Ideal) x3 x4 (ix2 e 0) = BitVec.ofNat 32 (rel e).val := by
  unfold Read.val_main_v20
  rw [concatenate_pair_apply_left (t := S800000x2) (s₁ := S800000x1) (s₂ := S800000x1) (1 : Fin S800000x2.rank) _ _ _ (ix2 e (0 : Fin 2)) rfl (ix2 e (0 : Fin 1) : S800000x1.Idx)
    (fun b => match b with | ⟨0, _⟩ => rfl | ⟨1, _⟩ => rfl)]
  rw [Read.val_main_v18_apply, ← v12_at x3 x4 T e]
  congr 1
  funext a
  match a with
  | ⟨0, _⟩ => rfl

/-- The index pair's second component is the source. -/
theorem v20_at1 (T : Cert.Spec.Tables x3 x4 rel src dst) (e : Fin 800000) :
    Read.val_main_v20 (F := Ideal) x3 x4 (ix2 e 1) = BitVec.ofNat 32 (src e).val := by
  unfold Read.val_main_v20
  rw [concatenate_pair_apply_right (t := S800000x2) (s₁ := S800000x1) (s₂ := S800000x1) (1 : Fin S800000x2.rank) _ _ _ (ix2 e (1 : Fin 2)) rfl rfl (ix2 e (0 : Fin 1) : S800000x1.Idx)
    (fun b => match b with | ⟨0, _⟩ => fun _ => rfl | ⟨1, _⟩ => fun hb => absurd rfl hb) rfl]
  rw [Read.val_main_v19_apply, ← v17_at x3 x4 T e]
  congr 1
  funext a
  match a with
  | ⟨0, _⟩ => rfl

end Pairs

section Gather

/-- The gather's dimension numbers. -/
abbrev GD : GatherDims S2x9x50000x64 S800000x2 S2x800000x64 := gather_S2x9x50000x64_S800000x2_S2x800000x64_02_12_n_n_12_1_21164

/-- The start on an operand axis the index pair names: the pair's component, which is in range, so the clamp keeps it. -/
theorem g_start1 (idx : IVec S800000x2 32) (h : Fin 2) (e : Fin 800000) (o : Fin 64) (r : Fin 9)
    (h0 : idx (ix2 e 0) = BitVec.ofNat 32 r.val) : GD.start (ix3 h e o) idx 1 = r.val := by
  unfold GatherDims.start
  rw [dif_pos (by decide)]
  have hsi : GD.siIdx (ix3 h e o) ⟨List.idxOf (1 : Fin 4) GD.startIndexMap, List.idxOf_lt_length_iff.2 (by decide)⟩ = ix2 e 0 := by
    funext b; refine Fin.ext ?_
    match b with
    | ⟨0, _⟩ => rfl
    | ⟨1, _⟩ => rfl
  rw [hsi, h0, toInt_ofNat_small _ (by have := r.isLt; omega), Int.toNat_natCast]
  exact Nat.min_eq_left (by have := r.isLt; show r.val ≤ 9 - 1; omega)

/-- The same on the source axis. -/
theorem g_start2 (idx : IVec S800000x2 32) (h : Fin 2) (e : Fin 800000) (o : Fin 64) (s : Fin 50000)
    (h1 : idx (ix2 e 1) = BitVec.ofNat 32 s.val) : GD.start (ix3 h e o) idx 2 = s.val := by
  unfold GatherDims.start
  rw [dif_pos (by decide)]
  have hsi : GD.siIdx (ix3 h e o) ⟨List.idxOf (2 : Fin 4) GD.startIndexMap, List.idxOf_lt_length_iff.2 (by decide)⟩ = ix2 e 1 := by
    funext b; refine Fin.ext ?_
    match b with
    | ⟨0, _⟩ => rfl
    | ⟨1, _⟩ => rfl
  rw [hsi, h1, toInt_ofNat_small _ (by have := s.isLt; omega), Int.toNat_natCast]
  exact Nat.min_eq_left (by have := s.isLt; show s.val ≤ 50000 - 1; omega)

/-- The gather at (h, e, o) reads the operand at (h, r, s, o) when edge e's index pair is (r, s), both in range. -/
theorem gather_at (x : S2x9x50000x64.Idx → EReal) (idx : IVec S800000x2 32) (h : Fin 2) (e : Fin 800000) (o : Fin 64)
    (r : Fin 9) (s : Fin 50000) (h0 : idx (ix2 e 0) = BitVec.ofNat 32 r.val) (h1 : idx (ix2 e 1) = BitVec.ofNat 32 s.val) :
    Host.gather GD x idx (ix3 h e o) = x (ix4 h r s o) := by
  unfold Host.gather
  congr 1
  funext a
  refine Fin.ext ?_
  have hb : ∀ a, GD.batchCoord (ix3 h e o) a = 0 :=
    fun a => GatherDims.batchCoord_eq_zero _ _ _ List.not_mem_nil
  show GD.start (ix3 h e o) idx a + GD.batchCoord (ix3 h e o) a + GD.offCoord (ix3 h e o) a = _
  rw [hb a, Nat.add_zero]
  match a with
  | ⟨0, _⟩ =>
    have hs : GD.start (ix3 h e o) idx 0 = 0 := by unfold GatherDims.start; exact dif_neg (by decide)
    have ho : GD.offCoord (ix3 h e o) 0 = h.val := by unfold GatherDims.offCoord; rw [dif_pos (by decide)]; rfl
    show GD.start (ix3 h e o) idx 0 + GD.offCoord (ix3 h e o) 0 = h.val
    rw [hs, ho, Nat.zero_add]
  | ⟨1, _⟩ =>
    have ho : GD.offCoord (ix3 h e o) 1 = 0 := GatherDims.offCoord_eq_zero _ _ _ (by decide)
    show GD.start (ix3 h e o) idx 1 + GD.offCoord (ix3 h e o) 1 = r.val
    rw [g_start1 idx h e o r h0, ho, Nat.add_zero]
  | ⟨2, _⟩ =>
    have ho : GD.offCoord (ix3 h e o) 2 = 0 := GatherDims.offCoord_eq_zero _ _ _ (by decide)
    show GD.start (ix3 h e o) idx 2 + GD.offCoord (ix3 h e o) 2 = s.val
    rw [g_start2 idx h e o s h1, ho, Nat.add_zero]
  | ⟨3, _⟩ =>
    have hs : GD.start (ix3 h e o) idx 3 = 0 := by unfold GatherDims.start; exact dif_neg (by decide)
    have ho : GD.offCoord (ix3 h e o) 3 = o.val := by unfold GatherDims.offCoord; rw [dif_pos (by decide)]; rfl
    show GD.start (ix3 h e o) idx 3 + GD.offCoord (ix3 h e o) 3 = o.val
    rw [hs, ho, Nat.zero_add]

end Gather

section Lin
variable (x0 : FVec Ideal S50000x256 .f32) (x1 : FVec Ideal S50000x1 .f32) (x2 : FVec Ideal S2x9x64x256 .f32)

/-- The transformed features at (h, d, n, o): the specification's `lin`, the product's two factors exchanged. -/
theorem v3_at (h : Fin 2) (d : Fin 9) (n : Fin 50000) (o : Fin 64) :
    Read.val_main_v3 (F := Ideal) x0 x1 x2 (ix4 h d n o) = Cert.Spec.lin x0 x1 x2 h d n o := by
  rw [Read.val_main_v3_apply, Read.val_main_v2_apply]
  unfold Cert.Spec.lin
  refine Finset.sum_congr rfl fun k _ => ?_
  rw [Read.val_main_v1_apply, Read.val_main_v0_apply]
  have e1 : Read.lidx_main_v2 (Read.idx_main_v3 (ix4 h d n o)) k = ix4 h d o k := by
    funext a; match a with | ⟨0, _⟩ => rfl | ⟨1, _⟩ => rfl | ⟨2, _⟩ => rfl | ⟨3, _⟩ => rfl
  have e2 : Read.ridx_main_v2 (Read.idx_main_v3 (ix4 h d n o)) k = ix2 n k := by
    funext a; match a with | ⟨0, _⟩ => rfl | ⟨1, _⟩ => rfl
  have e3 : Read.idx_main_v0 (ix2 n k) = ix2 n 0 := by
    funext a; match a with | ⟨0, _⟩ => rfl | ⟨1, _⟩ => rfl
  rw [e1, e2, e3]
  exact mul_comm _ _

end Lin

section Gathered
variable (x0 : FVec Ideal S50000x256 .f32) (x1 : FVec Ideal S50000x1 .f32) (x2 : FVec Ideal S2x9x64x256 .f32)
  (x3 : IVec S2x800000 32) (x4 : IVec S800000 32) {rel : Fin 800000 → Fin 9} {src dst : Fin 800000 → Fin 50000}

/-- The gathered row of edge e at (h, o): the transformed features of its source under its relation. -/
theorem v21_at (T : Cert.Spec.Tables x3 x4 rel src dst) (h : Fin 2) (e : Fin 800000) (o : Fin 64) :
    Read.val_main_v21 (F := Ideal) x0 x1 x2 x3 x4 (ix3 h e o) = Cert.Spec.lin x0 x1 x2 h (rel e) (src e) o := by
  unfold Read.val_main_v21
  rw [gather_at _ _ h e o (rel e) (src e) (v20_at0 x3 x4 T e) (v20_at1 x3 x4 T e), v3_at]

/-- The same row, laid out edge first. -/
theorem v25_at (T : Cert.Spec.Tables x3 x4 rel src dst) (e : Fin 800000) (h : Fin 2) (o : Fin 64) :
    Read.val_main_v25 (F := Ideal) x0 x1 x2 x3 x4 (ix3 e h o) = Cert.Spec.lin x0 x1 x2 h (rel e) (src e) o := by
  rw [Read.val_main_v25_apply, ← v21_at x0 x1 x2 x3 x4 T h e o]
  congr 1
  funext a
  match a with | ⟨0, _⟩ => rfl | ⟨1, _⟩ => rfl | ⟨2, _⟩ => rfl

end Gathered

section Scatter

/-- The scatter's dimension numbers. -/
abbrev SD : ScatterDims S450000x2x64 S800000x1 S800000x2x64 := scatter_S450000x2x64_S800000x1_S800000x2x64_12_0_0_1

/-- Update (e, h, o) lands at (g, h, o) when edge e's bucket word names g, which is in range. -/
theorem s_result (idx : IVec S800000x1 32) (e : Fin 800000) (h : Fin 2) (o : Fin 64) (g : Fin 450000)
    (h0 : idx (ix2 e 0) = BitVec.ofNat 32 g.val) :
    SD.resultIdx? (ix3 e h o) idx = some (ix3 g h o) := by
  have hs0 : SD.start (ix3 e h o) idx 0 = (g.val : Int) := by
    unfold ScatterDims.start
    rw [dif_pos (by decide)]
    have hsi : SD.siIdx (ix3 e h o) ⟨List.idxOf (0 : Fin 3) SD.scatterDimsToOperandDims, List.idxOf_lt_length_iff.2 (by decide)⟩ = ix2 e 0 := by
      funext b; refine Fin.ext ?_
      match b with
      | ⟨0, _⟩ => rfl
      | ⟨1, _⟩ => rfl
    rw [hsi, h0, toInt_ofNat_small _ (by have := g.isLt; omega)]
  have hs1 : SD.start (ix3 e h o) idx 1 = 0 := by unfold ScatterDims.start; exact dif_neg (by decide)
  have hs2 : SD.start (ix3 e h o) idx 2 = 0 := by unfold ScatterDims.start; exact dif_neg (by decide)
  have hw0 : SD.window (ix3 e h o) 0 = 0 := by unfold ScatterDims.window; exact dif_neg (by decide)
  have hw1 : SD.window (ix3 e h o) 1 = h.val := by unfold ScatterDims.window; rw [dif_pos (by decide)]; rfl
  have hw2 : SD.window (ix3 e h o) 2 = o.val := by unfold ScatterDims.window; rw [dif_pos (by decide)]; rfl
  have H : ∀ a, 0 ≤ SD.start (ix3 e h o) idx a + SD.window (ix3 e h o) a
      ∧ SD.start (ix3 e h o) idx a + SD.window (ix3 e h o) a < S450000x2x64.size a := by
    intro a
    match a with
    | ⟨0, _⟩ =>
      show 0 ≤ SD.start (ix3 e h o) idx 0 + ((SD.window (ix3 e h o) 0 : Nat) : Int)
        ∧ SD.start (ix3 e h o) idx 0 + ((SD.window (ix3 e h o) 0 : Nat) : Int) < ((450000 : Nat) : Int)
      rw [hs0, hw0]; have := g.isLt; omega
    | ⟨1, _⟩ =>
      show 0 ≤ SD.start (ix3 e h o) idx 1 + ((SD.window (ix3 e h o) 1 : Nat) : Int)
        ∧ SD.start (ix3 e h o) idx 1 + ((SD.window (ix3 e h o) 1 : Nat) : Int) < ((2 : Nat) : Int)
      rw [hs1, hw1]; have := h.isLt; omega
    | ⟨2, _⟩ =>
      show 0 ≤ SD.start (ix3 e h o) idx 2 + ((SD.window (ix3 e h o) 2 : Nat) : Int)
        ∧ SD.start (ix3 e h o) idx 2 + ((SD.window (ix3 e h o) 2 : Nat) : Int) < ((64 : Nat) : Int)
      rw [hs2, hw2]; have := o.isLt; omega
  unfold ScatterDims.resultIdx?
  rw [dif_pos H]
  congr 1
  funext a
  refine Fin.ext ?_
  match a with
  | ⟨0, _⟩ =>
    show (SD.start (ix3 e h o) idx 0 + ((SD.window (ix3 e h o) 0 : Nat) : Int)).toNat = g.val
    rw [hs0, hw0]; omega
  | ⟨1, _⟩ =>
    show (SD.start (ix3 e h o) idx 1 + ((SD.window (ix3 e h o) 1 : Nat) : Int)).toNat = h.val
    rw [hs1, hw1]; omega
  | ⟨2, _⟩ =>
    show (SD.start (ix3 e h o) idx 2 + ((SD.window (ix3 e h o) 2 : Nat) : Int)).toNat = o.val
    rw [hs2, hw2]; omega

/-- The accumulating scatter at (g, h, o): what was there plus the updates of the edges whose bucket is g. -/
theorem scatter_at (x : FVec Ideal S450000x2x64 .f32) (idx : IVec S800000x1 32) (upd : FVec Ideal S800000x2x64 .f32)
    (seg : Fin 800000 → Fin 450000) (hseg : ∀ e, idx (ix2 e 0) = BitVec.ofNat 32 (seg e).val)
    (g : Fin 450000) (h : Fin 2) (o : Fin 64) :
    Host.scatterAdd (F := Ideal) SD x idx upd (ix3 g h o)
      = x (ix3 g h o) + ∑ e : Fin 800000, if seg e = g then upd (ix3 e h o) else 0 := by
  show Ideal.hostScatterAdd SD x idx upd (ix3 g h o) = _
  unfold Ideal.hostScatterAdd
  refine congrArg (x (ix3 g h o) + ·) ?_
  refine Eq.trans ?_ (Finset.sum_filter (fun e : Fin 800000 => seg e = g) (fun e => upd (ix3 e h o)))
  have key : ∀ j : S800000x2x64.Idx, SD.resultIdx? j idx = some (ix3 g h o) → seg (j 0) = g ∧ j = ix3 (j 0) h o := by
    intro j hj
    obtain ⟨e', h', o', rfl⟩ : ∃ (e' : Fin 800000) (h' : Fin 2) (o' : Fin 64), j = ix3 e' h' o' := ⟨j 0, j 1, j 2, eq_ix3 j⟩
    rw [s_result idx e' h' o' (seg e') (hseg e')] at hj
    have hj' := Option.some.inj hj
    have c0 : seg e' = g := congrFun hj' 0
    have c1 : h' = h := congrFun hj' 1
    have c2 : o' = o := congrFun hj' 2
    subst c1; subst c2
    exact ⟨c0, rfl⟩
  refine Finset.sum_nbij' (fun j => (j 0 : Fin 800000)) (fun e => ix3 e h o) ?_ ?_ ?_ ?_ ?_
  · intro j hj
    exact Finset.mem_filter.mpr ⟨Finset.mem_univ _, (key j (Finset.mem_filter.mp hj).2).1⟩
  · intro e he
    refine Finset.mem_filter.mpr ⟨Finset.mem_univ _, ?_⟩
    rw [s_result idx e h o (seg e) (hseg e), (Finset.mem_filter.mp he).2]
  · intro j hj
    exact (key j (Finset.mem_filter.mp hj).2).2.symm
  · intro e he
    rfl
  · intro j hj
    exact congrArg upd (key j (Finset.mem_filter.mp hj).2).2

end Scatter

section Buckets
variable (x0 : FVec Ideal S50000x256 .f32) (x1 : FVec Ideal S50000x1 .f32) (x2 : FVec Ideal S2x9x64x256 .f32)
  (x3 : IVec S2x800000 32) (x4 : IVec S800000 32) {rel : Fin 800000 → Fin 9} {src dst : Fin 800000 → Fin 50000}

/-- The bucket of relation d and target n among the 9 · 50000 buckets. -/
def bucket (d : Fin 9) (n : Fin 50000) : Fin 450000 := ⟨d.val * 50000 + n.val, by have := d.isLt; have := n.isLt; omega⟩

/-- Edge e's bucket word: relation · 50000 + target, which does not wrap. -/
theorem v27_at (T : Cert.Spec.Tables x3 x4 rel src dst) (e : Fin 800000) :
    Read.val_main_v27 (F := Ideal) x3 x4 (ix2 e 0) = BitVec.ofNat 32 (bucket (rel e) (dst e)).val := by
  rw [Read.val_main_v27_apply]
  refine Eq.trans ?_ (v24_at x3 x4 T e)
  congr 1
  funext a
  match a with
  | ⟨0, _⟩ => rfl

/-- The buckets after the scatter, at (bucket d n, h, o): the specification's `agg`. -/
theorem v28_at (T : Cert.Spec.Tables x3 x4 rel src dst) (d : Fin 9) (n : Fin 50000) (h : Fin 2) (o : Fin 64) :
    Read.val_main_v28 (F := Ideal) x0 x1 x2 x3 x4 (ix3 (bucket d n) h o) = Cert.Spec.agg x0 x1 x2 rel src dst n d h o := by
  unfold Read.val_main_v28
  rw [scatter_at _ _ _ (fun e => bucket (rel e) (dst e)) (fun e => v27_at x3 x4 T e) (bucket d n) h o]
  have z : (FloatOps.ofBits .f32 0x00000000#32 : Ideal .f32) = 0 := Ideal.ofBits_zero_f32
  rw [Read.val_main_v26_apply, Read.val_main_cst_apply, z, zero_add]
  unfold Cert.Spec.agg
  refine Finset.sum_congr rfl fun e _ => ?_
  rw [v25_at x0 x1 x2 x3 x4 T e h o]
  refine if_congr ?_ rfl rfl
  have h1 := (dst e).isLt
  have h2 := n.isLt
  constructor
  · intro hb
    have hv : (rel e).val * 50000 + (dst e).val = d.val * 50000 + n.val := congrArg Fin.val hb
    exact ⟨Fin.ext (by omega), Fin.ext (by omega)⟩
  · rintro ⟨hd, hr⟩
    rw [hd, hr]

end Buckets

section Columns

/-- Output position (n, c) of [50000, 1152] is (head, n, c mod 576) of [2, 50000, 576]. -/
theorem col_split (n : Fin 50000) (c : Fin 1152) :
    Read.idx_main_v36 (Read.idx_main_v37 (ix2 n c))
      = ix3 (Cert.Spec.hOf c) n (⟨c.val % 576, Nat.mod_lt _ (by decide)⟩ : Fin 576) := by
  have hn := n.isLt
  have hc := c.isLt
  funext a
  refine Fin.ext ?_
  match a with
  | ⟨0, _⟩ => show (n.val * 1152 + c.val) / 576 % 2 = c.val / 576; omega
  | ⟨1, _⟩ => show (n.val * 1152 + c.val) / 1152 = n.val; omega
  | ⟨2, _⟩ => show (n.val * 1152 + c.val) % 576 = c.val % 576; omega

/-- Position (h, n, q) of [2, 50000, 576] is (q / 64, n, h, q mod 64) of [9, 50000, 2, 64]. -/
theorem div_split (h : Fin 2) (n : Fin 50000) (q : Fin 576) :
    Read.idx_main_v30 (Read.idx_main_v31 (ix3 h n q))
      = ix4 (⟨q.val / 64, by have := q.isLt; omega⟩ : Fin 9) n h (⟨q.val % 64, Nat.mod_lt _ (by decide)⟩ : Fin 64) := by
  have hh := h.isLt
  have hn := n.isLt
  have hq := q.isLt
  funext a
  refine Fin.ext ?_
  match a with
  | ⟨0, _⟩ => show ((h.val * 50000 + n.val) * 576 + q.val) / 64 % 9 = q.val / 64; omega
  | ⟨1, _⟩ => show ((h.val * 50000 + n.val) * 576 + q.val) / 576 % 50000 = n.val; omega
  | ⟨2, _⟩ => show ((h.val * 50000 + n.val) * 576 + q.val) / 28800000 = h.val; omega
  | ⟨3, _⟩ => show ((h.val * 50000 + n.val) * 576 + q.val) % 64 = q.val % 64; omega

/-- Position (d, n, h, o) of [9, 50000, 2, 64] is row `bucket d n` of [450000, 2, 64]. -/
theorem row_join (d : Fin 9) (n : Fin 50000) (h : Fin 2) (o : Fin 64) :
    Read.idx_main_v29 (ix4 d n h o) = ix3 (bucket d n) h o := by
  have hd := d.isLt
  have hn := n.isLt
  have hh := h.isLt
  have ho := o.isLt
  funext a
  refine Fin.ext ?_
  match a with
  | ⟨0, _⟩ => show (((d.val * 50000 + n.val) * 2 + h.val) * 64 + o.val) / 128 = d.val * 50000 + n.val; omega
  | ⟨1, _⟩ => show (((d.val * 50000 + n.val) * 2 + h.val) * 64 + o.val) / 64 % 2 = h.val; omega
  | ⟨2, _⟩ => show (((d.val * 50000 + n.val) * 2 + h.val) * 64 + o.val) % 64 = o.val; omega

/-- The scale broadcast over [2, 50000, 576] reads node n's scale. -/
theorem scale_at (h : Fin 2) (n : Fin 50000) (q : Fin 576) :
    Read.idx_main_v32 (Read.idx_main_v33 (ix3 h n q)) = ix2 n 0 := by
  funext a
  match a with
  | ⟨0, _⟩ => rfl
  | ⟨1, _⟩ => rfl

end Columns

/-- The reference's last stage is the specification's result. -/
theorem ref_is_out (x0 : FVec Ideal S50000x256 .f32) (x1 : FVec Ideal S50000x1 .f32) (x2 : FVec Ideal S2x9x64x256 .f32)
    (x3 : IVec S2x800000 32) (x4 : IVec S800000 32)
    {rel : Fin 800000 → Fin 9} {src dst : Fin 800000 → Fin 50000} (T : Cert.Spec.Tables x3 x4 rel src dst) :
    Cert.ReferenceIdeal.Read.val_main_v37 (F := Ideal) x0 x1 x2 x3 x4 = Cert.Spec.out x0 x1 x2 rel src dst := by
  funext j
  obtain ⟨n, c, rfl⟩ : ∃ (n : Fin 50000) (c : Fin 1152), j = ix2 n c := ⟨j 0, j 1, eq_ix2 j⟩
  have z : (FloatOps.ofBits .f32 0x00000000#32 : Ideal .f32) = 0 := Ideal.ofBits_zero_f32
  have hd : (⟨c.val % 576 / 64, by have := c.isLt; omega⟩ : Fin 9) = Cert.Spec.dOf c := rfl
  have ho : (⟨c.val % 576 % 64, Nat.mod_lt _ (by decide)⟩ : Fin 64) = Cert.Spec.oOf c :=
    Fin.ext (by show c.val % 576 % 64 = c.val % 64; omega)
  rw [Read.val_main_v37_apply, Read.val_main_v36_apply, Read.val_main_v35_apply, Read.val_main_v34_apply,
    Read.val_main_v31_apply, Read.val_main_v30_apply, Read.val_main_v29_apply, Read.val_main_v33_apply,
    Read.val_main_v32_apply, Read.val_main_call0_v0_apply, Read.val_main_call0_cst_apply, z,
    col_split n c, div_split, row_join, scale_at, hd, ho, v28_at x0 x1 x2 x3 x4 T]
  rfl

end Cert.ReferenceIdeal.RefValue
end
-- ==== Proof.PreDecode.lean ====
/-
  The precondition read back: besides the floats being finite it says that every word of the edge table names a
  node (0 ≤ · < 50000) and every word of the relation table a division (0 ≤ · < 9). So the tables ARE functions
  from edges to nodes and divisions.
-/
import proofs.«425970_j89361089560784_1_alg».proof.Pre_finite_inputs
import proofs.«425970_j89361089560784_1_alg».proof.Proof.Spec
import Idealize.ShloMosaic.Lib.ReduceAll
import Idealize.ShloMosaic.Lib.StableHlo.Predicate
import Idealize.ShloMosaic.Lib.ValueIdx

set_option maxRecDepth 16384

noncomputable section

namespace Cert.PreDecode

open Idealize.ShloMosaic Idealize.ShloMosaic.ValueIdx

/-- The shape with no axes has exactly one index. -/
instance : Subsingleton Cert.Pre_finite_inputs.S_.Idx := ⟨fun a b => funext fun d => d.elim0⟩

/-- A 32-bit word that tests signed-nonnegative and signed-below a bound under 2³¹ is, read unsigned, below that
    bound: a word whose top bit is set reads negative, so the first test excludes it, and below 2³¹ the signed and
    unsigned readings agree. -/
theorem toNat_lt_of_cmpi {x : BitVec 32} (k : Nat) (hk : k < 2 ^ 31)
    (h0 : IntOp.cmpi .sge x 0#32 = 1#1) (h1 : IntOp.cmpi .slt x (BitVec.ofNat 32 k) = 1#1) : x.toNat < k := by
  rw [IntOp.cmpi_sge, show (0#32 : BitVec 32).toInt = 0 from by decide] at h0
  rw [IntOp.cmpi_slt, StableHlo.Predicate.toInt_ofNat_small k hk] at h1
  rw [BitVec.toInt_eq_toNat_cond] at h0 h1
  have := x.isLt
  split at h0 <;> omega

/-- Where the precondition holds the edge tables are coordinates: a relation, a source and a target per edge. -/
theorem tables_of_pre [Cert.Pre_finite_inputs.Facts]
    (a0 : FVec Ideal Cert.Pre_finite_inputs.S50000x256 .f32) (a1 : FVec Ideal Cert.Pre_finite_inputs.S50000x1 .f32)
    (a2 : FVec Ideal Cert.Pre_finite_inputs.S2x9x64x256 .f32)
    (ei : IVec Cert.Pre_finite_inputs.S2x800000 32) (er : IVec Cert.Pre_finite_inputs.S800000 32)
    (h : Cert.Pre_finite_inputs.fn (F := Ideal) a0 a1 a2 ei er = fun _ => 1#1) :
    ∃ (rel : Fin 800000 → Fin 9) (src dst : Fin 800000 → Fin 50000), Cert.Spec.Tables ei er rel src dst := by
  -- the precondition at its one index: a conjunction of five bits
  have h0 := congrFun h ValueIdx.ix0
  dsimp only [Cert.Pre_finite_inputs.fn, Cert.Pre_finite_inputs.fn_part1] at h0
  -- the last two conjuncts are the two integer range tests; the three float ones are not needed
  obtain ⟨h1234, h5⟩ := IntOp.andi_eq_one.1 h0
  obtain ⟨-, h4⟩ := IntOp.andi_eq_one.1 h1234
  -- a conjunction over all elements that holds, holds at each; there both comparisons hold
  have hei : ∀ i, (ei i).toNat < 50000 := fun i => by
    obtain ⟨ha, hb⟩ := IntOp.andi_eq_one.1 (Host.reduce_andi_all _ _ _ _ _ h4 i)
    exact toNat_lt_of_cmpi 50000 (by norm_num) ha hb
  have her : ∀ i, (er i).toNat < 9 := fun i => by
    obtain ⟨ha, hb⟩ := IntOp.andi_eq_one.1 (Host.reduce_andi_all _ _ _ _ _ h5 i)
    exact toNat_lt_of_cmpi 9 (by norm_num) ha hb
  -- each coordinate is the word's own value; a word is the word of its value
  refine ⟨fun e => ⟨(er (ix1 e)).toNat, her _⟩, fun e => ⟨(ei (ix2 1 e)).toNat, hei _⟩,
    fun e => ⟨(ei (ix2 0 e)).toNat, hei _⟩, ⟨fun e => ?_, fun e => ?_, fun e => ?_⟩⟩ <;>
  exact ((BitVec.ofNat_toNat 32 _).trans (BitVec.setWidth_eq _)).symm

end Cert.PreDecode

end
-- ==== Proof.lean ====
/-
  A graph layer with per-relation linear transforms: the kernel's program against its jnp reference, over the
  extended reals.

  Both programs compute, for node n, head h, relation d and output feature o,

      out n (h·576 + d·64 + o) = max ((∑ over the edges e into n of relation d, ∑ i, (feat (src e) i · nrm (src e)) · W h d o i) · nrm n) 0 .

  The kernel's program transforms all nodes on the matrix unit in a first region (relations as the fast grid axis,
  the two heads' weights side by side), gathers and adds the rows per edge on the host from a table flattened to
  [9·50000, 128], indexing it by rel·50000 + src and the buckets by dst·9 + rel, and scales, rectifies and lays out
  the result in a second region. The reference contracts with the weights on the left, gathers with the index pair
  (rel, src), adds into the buckets rel·50000 + dst and transposes. The flattened indices agree with the pairs
  exactly when every table word is in its range, which is what the precondition states beside the floats' being
  finite; the floats' finiteness itself is never used: only commutativity of the product and the order of
  finite sums differ between the two sides.

  The frames of the two kernel programs are the generated ones; the reference's frame is its generated run with
  the result dropped. The idealization rewrote nothing, so it is preserved trivially. For the equivalence the
  kernel's run is taken with its result named (KernelRun), the result read as the specification's function
  (KValue, over R0Value, KMid, R1Value and the contents fold in KGlue), the reference's likewise (RefValue), the
  tables decoded from the precondition (PreDecode).
-/
import proofs.«425970_j89361089560784_1_alg».proof.Defs
import proofs.«425970_j89361089560784_1_alg».proof.Proof.Gen.Kernel
import proofs.«425970_j89361089560784_1_alg».proof.Proof.Gen.Kernel.Skeleton
import proofs.«425970_j89361089560784_1_alg».proof.Proof.Gen.Kernel.Launch
import proofs.«425970_j89361089560784_1_alg».proof.Proof.Gen.Kernel.Points
import proofs.«425970_j89361089560784_1_alg».proof.Proof.Gen.Kernel.Frame
import proofs.«425970_j89361089560784_1_alg».proof.Proof.Gen.KernelIdeal
import proofs.«425970_j89361089560784_1_alg».proof.Proof.Gen.KernelIdeal.Skeleton
import proofs.«425970_j89361089560784_1_alg».proof.Proof.Gen.KernelIdeal.Launch
import proofs.«425970_j89361089560784_1_alg».proof.Proof.Gen.KernelIdeal.Points
import proofs.«425970_j89361089560784_1_alg».proof.Proof.Gen.KernelIdeal.Frame
import proofs.«425970_j89361089560784_1_alg».proof.Proof.Gen.ReferenceIdeal
import proofs.«425970_j89361089560784_1_alg».proof.Proof.Gen.ReferenceIdeal.Run
import proofs.«425970_j89361089560784_1_alg».proof.Proof.Gen.ReferenceIdeal.Read
import proofs.«425970_j89361089560784_1_alg».proof.Proof.Gen.Pre_finite_inputs
import proofs.«425970_j89361089560784_1_alg».proof.Proof.KernelRun
import proofs.«425970_j89361089560784_1_alg».proof.Proof.KValue
import proofs.«425970_j89361089560784_1_alg».proof.Proof.RefValue
import proofs.«425970_j89361089560784_1_alg».proof.Proof.PreDecode
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition both programs end at the
    specification's result, with the tables the precondition yields read as coordinates. -/
theorem algebraic : Cert.algebraic_KernelIdeal_ReferenceIdeal := by
  intro m ρ m' ρ' hpre hagree
  have hT : ∀ c : Dev Cert.KernelIdeal.nD, ∃ (rel : Fin 800000 → Fin 9) (src dst : Fin 800000 → Fin 50000),
      Cert.Spec.Tables (Cert.KernelIdeal.KValue.ei0 m c) (Cert.KernelIdeal.KValue.er0 m c) rel src dst :=
    fun c => Cert.PreDecode.tables_of_pre _ _ _ _ _ (hpre c)
  choose rel src dst T using hT
  refine ⟨fun c => Cert.Spec.out (Cert.KernelIdeal.KValue.feat0 m c) (Cert.KernelIdeal.KValue.nrm0 m c)
      (Cert.KernelIdeal.KValue.wt0 m c) (rel c) (src c) (dst c), ?_, ?_⟩
  · exact (θ_run Cert.KernelIdeal.defs _ _).mono
      (fun r h c => ⟨(h c).1.trans (Cert.KernelIdeal.KValue.result_eq m ρ c (T c)), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v37_eq _ _ _ _ _).trans ?_
    rw [(hagree c).1, (hagree c).2.1, (hagree c).2.2.1, (hagree c).2.2.2.1, (hagree c).2.2.2.2]
    exact Cert.ReferenceIdeal.RefValue.ref_is_out _ _ _ _ _ (T c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
